-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x400000 : Shape := ⟨2, ![2, 400000]⟩
abbrev S400000x128 : Shape := ⟨2, ![400000, 128]⟩
abbrev S384x128 : Shape := ⟨2, ![384, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S400000x128 : S_.BroadcastsInDim S400000x128 (![] : Fin 0 → Fin S400000x128.rank)
  reducesTo_S400000x128_S_d0_1 : S400000x128.ReducesTo [0, 1] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S2x400000 : S_.BroadcastsInDim S2x400000 (![] : Fin 0 → Fin S2x400000.rank)
  reducesTo_S2x400000_S_d0_1 : S2x400000.ReducesTo [0, 1] S_

variable [Facts]

def fn_part5 {F : FTy → Type} [FloatOps F] (main_v78 : IVec S_ 1) (main_v84 : IVec S_ 1) : IVec S_ 1 :=
  let main_v85 : IVec S_ 1 := andi main_v78 main_v84
  main_v85

def fn_part4 {F : FTy → Type} [FloatOps F] (main_arg1 : IVec S2x400000 32) (main_arg15 : FVec F S128x1 .f32) (main_arg16 : FVec F S1 .f32) (main_v63 : IVec S_ 1) (main_v67 : IVec S_ 1) : IVec S_ 1 :=
  let main_v68 : IVec S_ 1 := andi main_v63 main_v67
  let main_v69 : FVec F S128x1 .f32 := Host.absf main_arg15
  let main_cst_26 : FVec F S_ .f32 := constant S_ .f32 0x7F800000#32
  let main_v70 : FVec F S128x1 .f32 := broadcastInDim S128x1 ![] bcast_S_S128x1 main_cst_26
  let main_v71 : IVec S128x1 1 := cmpf .olt main_v69 main_v70
  let main_c_27 : IVec S_ 1 := constantI S_ 1 1#1
  let main_v72 : IVec S_ 1 := (fun x v => Host.reduce IntOp.andi x v reducesTo_S128x1_S_d0_1 h_S_) main_v71 main_c_27
  let main_v73 : IVec S_ 1 := andi main_v68 main_v72
  let main_v74 : FVec F S1 .f32 := Host.absf main_arg16
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  let main_c_30 : IVec S_ 32 := constantI S_ 32 0#32
  let main_v79 : IVec S2x400000 32 := broadcastInDim S2x400000 ![] bcast_S_S2x400000 main_c_30
  let main_v80 : IVec S2x400000 1 := cmpi .sge main_arg1 main_v79
  let main_c_31 : IVec S_ 32 := constantI S_ 32 50000#32
  let main_v81 : IVec S2x400000 32 := broadcastInDim S2x400000 ![] bcast_S_S2x400000 main_c_31
  let main_v82 : IVec S2x400000 1 := cmpi .slt main_arg1 main_v81
  let main_v83 : IVec S2x400000 1 := andi main_v80 main_v82
  let main_c_32 : IVec S_ 1 := constantI S_ 1 1#1
  let main_v84 : IVec S_ 1 := (fun x v => Host.reduce IntOp.andi x v reducesTo_S2x400000_S_d0_1 h_S_) main_v83 main_c_32
  fn_part5 (F := F) main_v78 main_v84

def fn_part3 {F : FTy → Type} [FloatOps F] (main_arg1 : IVec S2x400000 32) (main_arg12 : FVec F S128 .f32) (main_arg13 : FVec F S128 .f32) (main_arg14 : FVec F S128 .f32) (main_arg15 : FVec F S128x1 .f32) (main_arg16 : FVec F S1 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg1 main_arg15 main_arg16 main_v63 main_v67

def fn_part2 {F : FTy → Type} [FloatOps F] (main_arg1 : IVec S2x400000 32) (main_arg8 : FVec F S128 .f32) (main_arg9 : FVec F S128 .f32) (main_arg10 : FVec F S128 .f32) (main_arg11 : FVec F S128x128 .f32) (main_arg12 : FVec F S128 .f32) (main_arg13 : FVec F S128 .f32) (main_arg14 : FVec F S128 .f32) (main_arg15 : FVec F S128x1 .f32) (main_arg16 : FVec F S1 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg1 main_arg12 main_arg13 main_arg14 main_arg15 main_arg16 main_v48 main_v49 main_v50

def fn_part1 {F : FTy → Type} [FloatOps F] (main_arg1 : IVec S2x400000 32) (main_arg5 : FVec F S128 .f32) (main_arg6 : FVec F S128 .f32) (main_arg7 : FVec F S128x128 .f32) (main_arg8 : FVec F S128 .f32) (main_arg9 : FVec F S128 .f32) (main_arg10 : FVec F S128 .f32) (main_arg11 : FVec F S128x128 .f32) (main_arg12 : FVec F S128 .f32) (main_arg13 : FVec F S128 .f32) (main_arg14 : FVec F S128 .f32) (main_arg15 : FVec F S128x1 .f32) (main_arg16 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg1 main_arg8 main_arg9 main_arg10 main_arg11 main_arg12 main_arg13 main_arg14 main_arg15 main_arg16 main_v33

def fn {F : FTy → Type} [FloatOps F] (main_arg0 : FVec F S50000x128 .f32) (main_arg1 : IVec S2x400000 32) (main_arg2 : FVec F S400000x128 .f32) (main_arg3 : FVec F S384x128 .f32) (main_arg4 : FVec F S128 .f32) (main_arg5 : FVec F S128 .f32) (main_arg6 : FVec F S128 .f32) (main_arg7 : FVec F S128x128 .f32) (main_arg8 : FVec F S128 .f32) (main_arg9 : FVec F S128 .f32) (main_arg10 : FVec F S128 .f32) (main_arg11 : FVec F S128x128 .f32) (main_arg12 : FVec F S128 .f32) (main_arg13 : FVec F S128 .f32) (main_arg14 : FVec F S128 .f32) (main_arg15 : FVec F S128x1 .f32) (main_arg16 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S400000x128 .f32 := Host.absf main_arg2
  let main_cst_0 : FVec F S_ .f32 := constant S_ .f32 0x7F800000#32
  let main_v5 : FVec F S400000x128 .f32 := broadcastInDim S400000x128 ![] bcast_S_S400000x128 main_cst_0
  let main_v6 : IVec S400000x128 1 := cmpf .olt main_v4 main_v5
  let main_c_1 : IVec S_ 1 := constantI S_ 1 1#1
  let main_v7 : IVec S_ 1 := (fun x v => Host.reduce IntOp.andi x v reducesTo_S400000x128_S_d0_1 h_S_) main_v6 main_c_1
  let main_v8 : IVec S_ 1 := andi main_v3 main_v7
  let main_v9 : FVec F S384x128 .f32 := Host.absf main_arg3
  let main_cst_2 : FVec F S_ .f32 := constant S_ .f32 0x7F800000#32
  let main_v10 : FVec F S384x128 .f32 := broadcastInDim S384x128 ![] bcast_S_S384x128 main_cst_2
  let main_v11 : IVec S384x128 1 := cmpf .olt main_v9 main_v10
  let main_c_3 : IVec S_ 1 := constantI S_ 1 1#1
  let main_v12 : IVec S_ 1 := (fun x v => Host.reduce IntOp.andi x v reducesTo_S384x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_arg7 main_arg8 main_arg9 main_arg10 main_arg11 main_arg12 main_arg13 main_arg14 main_arg15 main_arg16 main_v13 main_v16
-- ==== Kernel.lean ====
abbrev S50000x128 : Shape := ⟨2, ![50000, 128]⟩
abbrev S2x400000 : Shape := ⟨2, ![2, 400000]⟩
abbrev S400000x128 : Shape := ⟨2, ![400000, 128]⟩
abbrev S384x128 : Shape := ⟨2, ![384, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S1x1 : Shape := ⟨2, ![1, 1]⟩
abbrev S4000x128 : Shape := ⟨2, ![4000, 128]⟩
abbrev S4000x1 : Shape := ⟨2, ![4000, 1]⟩
abbrev S1x128 : Shape := ⟨2, ![1, 128]⟩
abbrev S4000 : Shape := ⟨1, ![4000]⟩

abbrev nBuf : Space → Nat
  | .hbm => 71
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S2x400000, .i32⟩
  | .hbm, ⟨2, _⟩ => ⟨S400000x128, .f32⟩
  | .hbm, ⟨3, _⟩ => ⟨S384x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128x1, .f32⟩
  | .hbm, ⟨16, _⟩ => ⟨S1, .f32⟩
  | .hbm, ⟨17, _⟩ => ⟨S1x400000, .i32⟩
  | .hbm, ⟨18, _⟩ => ⟨S400000, .i32⟩
  | .hbm, ⟨19, _⟩ => ⟨S1x400000, .i32⟩
  | .hbm, ⟨20, _⟩ => ⟨S400000, .i32⟩
  | .hbm, ⟨21, _⟩ => ⟨S_, .i32⟩
  | .hbm, ⟨22, _⟩ => ⟨S400000, .i32⟩
  | .hbm, ⟨23, _⟩ => ⟨S400000, .i1⟩
  | .hbm, ⟨24, _⟩ => ⟨S_, .i32⟩
  | .hbm, ⟨25, _⟩ => ⟨S400000, .i32⟩
  | .hbm, ⟨26, _⟩ => ⟨S400000, .i32⟩
  | .hbm, ⟨27, _⟩ => ⟨S400000, .i32⟩
  | .hbm, ⟨28, _⟩ => ⟨S400000x1, .i32⟩
  | .hbm, ⟨29, _⟩ => ⟨S1, .i32⟩
  | .hbm, ⟨30, _⟩ => ⟨S_, .i32⟩
  | .hbm, ⟨31, _⟩ => ⟨S400000x1, .i32⟩
  | .hbm, ⟨32, _⟩ => ⟨S400000x1, .i1⟩
  | .hbm, ⟨33, _⟩ => ⟨S1x1, .i32⟩
  | .hbm, ⟨34, _⟩ => ⟨S400000x1, .i32⟩
  | .hbm, ⟨35, _⟩ => ⟨S400000x1, .i1⟩
  | .hbm, ⟨36, _⟩ => ⟨S400000x1, .i1⟩
  | .hbm, ⟨37, _⟩ => ⟨S_, .i1⟩
  | .hbm, ⟨38, _⟩ => ⟨S400000, .i1⟩
  | .hbm, ⟨39, _⟩ => ⟨S400000x128, .f32⟩
  | .hbm, ⟨40, _⟩ => ⟨S400000x128, .i1⟩
  | .hbm, ⟨41, _⟩ => ⟨S_, .f32⟩
  | .hbm, ⟨42, _⟩ => ⟨S400000x128, .f32⟩
  | .hbm, ⟨43, _⟩ => ⟨S400000x128, .f32⟩
  | .hbm, ⟨44, _⟩ => ⟨S_, .i32⟩
  | .hbm, ⟨45, _⟩ => ⟨S400000, .i32⟩
  | .hbm, ⟨46, _⟩ => ⟨S400000, .i1⟩
  | .hbm, ⟨47, _⟩ => ⟨S_, .i32⟩
  | .hbm, ⟨48, _⟩ => ⟨S400000, .i32⟩
  | .hbm, ⟨49, _⟩ => ⟨S400000, .i32⟩
  | .hbm, ⟨50, _⟩ => ⟨S400000, .i32⟩
  | .hbm, ⟨51, _⟩ => ⟨S400000x1, .i32⟩
  | .hbm, ⟨52, _⟩ => ⟨S1, .i32⟩
  | .hbm, ⟨53, _⟩ => ⟨S_, .i32⟩
  | .hbm, ⟨54, _⟩ => ⟨S400000x1, .i32⟩
  | .hbm, ⟨55, _⟩ => ⟨S400000x1, .i1⟩
  | .hbm, ⟨56, _⟩ => ⟨S1x1, .i32⟩
  | .hbm, ⟨57, _⟩ => ⟨S400000x1, .i32⟩
  | .hbm, ⟨58, _⟩ => ⟨S400000x1, .i1⟩
  | .hbm, ⟨59, _⟩ => ⟨S400000x1, .i1⟩
  | .hbm, ⟨60, _⟩ => ⟨S_, .i1⟩
  | .hbm, ⟨61, _⟩ => ⟨S400000, .i1⟩
  | .hbm, ⟨62, _⟩ => ⟨S400000x128, .f32⟩
  | .hbm, ⟨63, _⟩ => ⟨S400000x128, .i1⟩
  | .hbm, ⟨64, _⟩ => ⟨S_, .f32⟩
  | .hbm, ⟨65, _⟩ => ⟨S400000x128, .f32⟩
  | .hbm, ⟨66, _⟩ => ⟨S400000x128, .f32⟩
  | .hbm, ⟨67, _⟩ => ⟨S128x128, .f32⟩
  | .hbm, ⟨68, _⟩ => ⟨S128x128, .f32⟩
  | .hbm, ⟨69, _⟩ => ⟨S128x128, .f32⟩
  | .hbm, ⟨70, _⟩ => ⟨S400000x1, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128, .f32⟩
  | .local _ .vmem, ⟨10, _⟩ => ⟨S128, .f32⟩
  | .local _ .vmem, ⟨11, _⟩ => ⟨S128, .f32⟩
  | .local _ .vmem, ⟨12, _⟩ => ⟨S128x128, .f32⟩
  | .local _ .vmem, ⟨13, _⟩ => ⟨S128, .f32⟩
  | .local _ .vmem, ⟨14, _⟩ => ⟨S128, .f32⟩
  | .local _ .vmem, ⟨15, _⟩ => ⟨S128, .f32⟩
  | .local _ .vmem, ⟨16, _⟩ => ⟨S128x128, .f32⟩
  | .local _ .vmem, ⟨17, _⟩ => ⟨S128, .f32⟩
  | .local _ .vmem, ⟨18, _⟩ => ⟨S128, .f32⟩
  | .local _ .vmem, ⟨19, _⟩ => ⟨S128, .f32⟩
  | .local _ .vmem, ⟨20, _⟩ => ⟨S128x1, .f32⟩
  | .local _ .vmem, ⟨21, _⟩ => ⟨S1, .f32⟩
  | .local _ .vmem, ⟨22, _⟩ => ⟨S4000x1, .f32⟩
  | .local _ .vmem, ⟨23, _⟩ => ⟨S4000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_call0_cst : Ref sig .tc := ⟨.hbm, 41, rfl⟩
abbrev main_call0_v15 : Ref sig .tc := ⟨.hbm, 42, rfl⟩
abbrev main_v4 : Ref sig .tc := ⟨.hbm, 43, rfl⟩
abbrev main_call1_c : Ref sig .tc := ⟨.hbm, 44, rfl⟩
abbrev main_call1_v0 : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_c_1 : Ref sig .tc := ⟨.hbm, 52, rfl⟩
abbrev main_call1_c_2 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_3 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_call1_cst : Ref sig .tc := ⟨.hbm, 64, rfl⟩
abbrev main_call1_v15 : Ref sig .tc := ⟨.hbm, 65, rfl⟩
abbrev main_v5 : Ref sig .tc := ⟨.hbm, 66, rfl⟩
abbrev main_v6 : Ref sig .tc := ⟨.hbm, 67, rfl⟩
abbrev main_v7 : Ref sig .tc := ⟨.hbm, 68, rfl⟩
abbrev main_v8 : Ref sig .tc := ⟨.hbm, 69, rfl⟩
abbrev main_v9 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg19_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem19_1 : DmaSem sig := 23

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S4000x1 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  bcast_S_S400000x1 : S_.BroadcastsInDim S400000x1 (![] : Fin 0 → Fin S400000x1.rank)
  bcast_S1_S1x1_1 : S1.BroadcastsInDim S1x1 (![1] : Fin 1 → Fin S1x1.rank)
  bcast_S1x1_S400000x1_0_1 : S1x1.BroadcastsInDim S400000x1 (![0, 1] : Fin 2 → Fin S400000x1.rank)
  reducesTo_S400000x1_S400000_d1 : S400000x1.ReducesTo [1] S400000
  h_S_ : 0 < S_.numel
  bcast_S400000_S400000x128_0 : S400000.BroadcastsInDim S400000x128 (![0] : Fin 1 → Fin S400000x128.rank)
  bcast_S_S400000x128 : S_.BroadcastsInDim S400000x128 (![] : Fin 0 → Fin S400000x128.rank)
  slices_S384x128_S128x128_0_0 : S384x128.Slices ![0, 0] S128x128
  slices_S384x128_S128x128_128_0 : S384x128.Slices ![128, 0] S128x128
  slices_S384x128_S128x128_256_0 : S384x128.Slices ![256, 0] S128x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  reduces_S4000x128_S4000 : S4000x128.Reduces [1] S4000
  shapeCasts_S4000_S4000x1 : S4000.ShapeCasts S4000x1
  broadcasts_S4000x1_S4000x128 : S4000x1.Broadcasts S4000x128
  inb_S128x1_S128x1_0_0 : ∀ a, (![0, 0] : Fin 2 → Nat) a + S128x1.size a ≤ S128x1.size a
  h_S128x1 : 0 < S128x1.numel
  inb_S1_S1_0 : ∀ a, (![0] : Fin 1 → Nat) a + S1.size a ≤ S1.size a
  h_S1 : 0 < S1.numel
  shapeCasts_S1_S1x1 : S1.ShapeCasts S1x1
  broadcasts_S1x1_S4000x1 : S1x1.Broadcasts S4000x1
  inb_S4000x1_S4000x1_0_0 : ∀ a, (![0, 0] : Fin 2 → Nat) a + S4000x1.size a ≤ S4000x1.size a
  h_S4000x1 : 0 < S4000x1.numel
  gather_S50000x128_S400000x1_S400000x128_1_0_n_n_0_1_1128_wf : GatherDims.WF S50000x128 S400000x1 S400000x128 [1] [0] [] [0] [] 1 ![1, 128]
  dot_S4000x128_S128x128_S4000x128_1_0_0_1_n_n_wf : DotDims.WF S4000x128 S128x128 S4000x128 [1] [0] [0] [1] [] []
  dot_S4000x128_S128x1_S4000x1_1_0_0_1_n_n_wf : DotDims.WF S4000x128 S128x1 S4000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S400000x128.size a
  hwx0_0 : ∀ i : grid0.Coords, EltTy.bits .f32 = 32 ∨ (Rect.block (s := S400000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S400000x128.size a
  hwx0_1 : ∀ i : grid0.Coords, EltTy.bits .f32 = 32 ∨ (Rect.block (s := S400000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S400000x128.size a
  hwx0_2 : ∀ i : grid0.Coords, EltTy.bits .f32 = 32 ∨ (Rect.block (s := S400000x128) S4000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128.size a ≤ S128.size a
  hwx0_11 : ∀ i : grid0.Coords, EltTy.bits .f32 = 32 ∨ (Rect.block (s := S128) S128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128.size a ≤ S128.size a
  hwx0_12 : ∀ i : grid0.Coords, EltTy.bits .f32 = 32 ∨ (Rect.block (s := S128) S128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128x128.size a ≤ S128x128.size a
  hwx0_13 : ∀ i : grid0.Coords, EltTy.bits .f32 = 32 ∨ (Rect.block (s := S128x128) S128x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S128.size a ≤ S128.size a
  hwx0_14 : ∀ i : grid0.Coords, EltTy.bits .f32 = 32 ∨ (Rect.block (s := S128) S128.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S128.size a ≤ S128.size a
  hwx0_15 : ∀ i : grid0.Coords, EltTy.bits .f32 = 32 ∨ (Rect.block (s := S128) S128.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S128.size a ≤ S128.size a
  hwx0_16 : ∀ i : grid0.Coords, EltTy.bits .f32 = 32 ∨ (Rect.block (s := S128) S128.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S128x1.size a ≤ S128x1.size a
  hwx0_17 : ∀ i : grid0.Coords, EltTy.bits .f32 = 32 ∨ (Rect.block (s := S128x1) S128x1.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1.size a ≤ S1.size a
  hwx0_18 : ∀ i : grid0.Coords, EltTy.bits .f32 = 32 ∨ (Rect.block (s := S1) S1.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S4000x1.size a ≤ S400000x1.size a
  hwx0_19 : ∀ i : grid0.Coords, EltTy.bits .f32 = 32 ∨ (Rect.block (s := S400000x1) S4000x1.size (cc0_transform_19 i) (hinb0_19 i)).WholeWords (EltTy.packing .f32)

variable [Facts₀]

def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x1_S4000x1_1_0_0_1_n_n : DotDims S4000x128 S128x1 S4000x1 where
  lhsContracting := [1]
  rhsContracting := [0]
  lhsNonContracting := [0]
  rhsNonContracting := [1]
  lhsBatch := []
  rhsBatch := []
  wf := dot_S4000x128_S128x1_S4000x1_1_0_0_1_n_n_wf

abbrev win0_0 : Pipeline.Window sig grid0 :=
  Pipeline.Window.ofSpec (Memref.whole main_v4) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg7) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg8) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg9) S128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg10) S128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg11) S128x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg12) S128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg13) S128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg14) S128.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg15) S128x1.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg16) S1.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v9) S4000x1.size cc0_transform_19 reads0_19 true false 2 stage0_19 sem0_19
    hrank0 hreads0_19 hinb0_19 nbuf0_19 (Memref.isWhole_whole _) hwx0_19 hstage0_19

abbrev win0 : Fin 20 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | ⟨_ + 20, h⟩ => absurd h (Nat.not_lt.2 (Nat.le_add_left _ _))
abbrev spec0 : Fin 20 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x400000 : Shape := ⟨2, ![2, 400000]⟩
abbrev S400000x128 : Shape := ⟨2, ![400000, 128]⟩
abbrev S384x128 : Shape := ⟨2, ![384, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x384 : Shape := ⟨2, ![400000, 384]⟩
abbrev S1x128 : Shape := ⟨2, ![1, 128]⟩
abbrev S1x1 : Shape := ⟨2, ![1, 1]⟩

abbrev nBuf : Space → Nat
  | .hbm => 152
  | .vmem => 0
  | .smem => 0
  | _ => 0

abbrev hbmTy0_0 (i : Nat) : BufTy := match i % 128 with
  | 0 => ⟨S50000x128, .f32⟩
  | 1 => ⟨S2x400000, .i32⟩
  | 2 => ⟨S400000x128, .f32⟩
  | 3 => ⟨S384x128, .f32⟩
  | 4 => ⟨S128, .f32⟩
  | 5 => ⟨S128, .f32⟩
  | 6 => ⟨S128, .f32⟩
  | 7 => ⟨S128x128, .f32⟩
  | 8 => ⟨S128, .f32⟩
  | 9 => ⟨S128, .f32⟩
  | 10 => ⟨S128, .f32⟩
  | 11 => ⟨S128x128, .f32⟩
  | 12 => ⟨S128, .f32⟩
  | 13 => ⟨S128, .f32⟩
  | 14 => ⟨S128, .f32⟩
  | 15 => ⟨S128x1, .f32⟩
  | 16 => ⟨S1, .f32⟩
  | 17 => ⟨S1x400000, .i32⟩
  | 18 => ⟨S400000, .i32⟩
  | 19 => ⟨S1x400000, .i32⟩
  | 20 => ⟨S400000, .i32⟩
  | 21 => ⟨S_, .i32⟩
  | 22 => ⟨S400000, .i32⟩
  | 23 => ⟨S400000, .i1⟩
  | 24 => ⟨S_, .i32⟩
  | 25 => ⟨S400000, .i32⟩
  | 26 => ⟨S400000, .i32⟩
  | 27 => ⟨S400000, .i32⟩
  | 28 => ⟨S400000x1, .i32⟩
  | 29 => ⟨S400000x128, .f32⟩
  | 30 => ⟨S_, .i32⟩
  | 31 => ⟨S400000, .i32⟩
  | 32 => ⟨S400000, .i1⟩
  | 33 => ⟨S_, .i32⟩
  | 34 => ⟨S400000, .i32⟩
  | 35 => ⟨S400000, .i32⟩
  | 36 => ⟨S400000, .i32⟩
  | 37 => ⟨S400000x1, .i32⟩
  | 38 => ⟨S400000x128, .f32⟩
  | 39 => ⟨S400000x384, .f32⟩
  | 40 => ⟨S400000x128, .f32⟩
  | 41 => ⟨S1x128, .f32⟩
  | 42 => ⟨S400000x128, .f32⟩
  | 43 => ⟨S400000x128, .f32⟩
  | 44 => ⟨S_, .f32⟩
  | 45 => ⟨S400000, .f32⟩
  | 46 => ⟨S400000x1, .f32⟩
  | 47 => ⟨S_, .f32⟩
  | 48 => ⟨S400000x1, .f32⟩
  | 49 => ⟨S400000x1, .f32⟩
  | 50 => ⟨S400000x128, .f32⟩
  | 51 => ⟨S400000x128, .f32⟩
  | 52 => ⟨S400000x128, .f32⟩
  | 53 => ⟨S_, .f32⟩
  | 54 => ⟨S400000, .f32⟩
  | 55 => ⟨S400000x1, .f32⟩
  | 56 => ⟨S_, .f32⟩
  | 57 => ⟨S400000x1, .f32⟩
  | 58 => ⟨S400000x1, .f32⟩
  | 59 => ⟨S400000x128, .f32⟩
  | 60 => ⟨S400000x128, .f32⟩
  | 61 => ⟨S_, .f32⟩
  | 62 => ⟨S400000x1, .f32⟩
  | 63 => ⟨S400000x1, .f32⟩
  | 64 => ⟨S400000x1, .f32⟩
  | 65 => ⟨S400000x128, .f32⟩
  | 66 => ⟨S400000x128, .f32⟩
  | 67 => ⟨S1x128, .f32⟩
  | 68 => ⟨S400000x128, .f32⟩
  | 69 => ⟨S400000x128, .f32⟩
  | 70 => ⟨S1x128, .f32⟩
  | 71 => ⟨S400000x128, .f32⟩
  | 72 => ⟨S400000x128, .f32⟩
  | 73 => ⟨S_, .f32⟩
  | 74 => ⟨S400000x128, .f32⟩
  | 75 => ⟨S400000x128, .f32⟩
  | 76 => ⟨S400000x128, .f32⟩
  | 77 => ⟨S1x128, .f32⟩
  | 78 => ⟨S400000x128, .f32⟩
  | 79 => ⟨S400000x128, .f32⟩
  | 80 => ⟨S_, .f32⟩
  | 81 => ⟨S400000, .f32⟩
  | 82 => ⟨S400000x1, .f32⟩
  | 83 => ⟨S_, .f32⟩
  | 84 => ⟨S400000x1, .f32⟩
  | 85 => ⟨S400000x1, .f32⟩
  | 86 => ⟨S400000x128, .f32⟩
  | 87 => ⟨S400000x128, .f32⟩
  | 88 => ⟨S400000x128, .f32⟩
  | 89 => ⟨S_, .f32⟩
  | 90 => ⟨S400000, .f32⟩
  | 91 => ⟨S400000x1, .f32⟩
  | 92 => ⟨S_, .f32⟩
  | 93 => ⟨S400000x1, .f32⟩
  | 94 => ⟨S400000x1, .f32⟩
  | 95 => ⟨S400000x128, .f32⟩
  | 96 => ⟨S400000x128, .f32⟩
  | 97 => ⟨S_, .f32⟩
  | 98 => ⟨S400000x1, .f32⟩
  | 99 => ⟨S400000x1, .f32⟩
  | 100 => ⟨S400000x1, .f32⟩
  | 101 => ⟨S400000x128, .f32⟩
  | 102 => ⟨S400000x128, .f32⟩
  | 103 => ⟨S1x128, .f32⟩
  | 104 => ⟨S400000x128, .f32⟩
  | 105 => ⟨S400000x128, .f32⟩
  | 106 => ⟨S1x128, .f32⟩
  | 107 => ⟨S400000x128, .f32⟩
  | 108 => ⟨S400000x128, .f32⟩
  | 109 => ⟨S_, .f32⟩
  | 110 => ⟨S400000x128, .f32⟩
  | 111 => ⟨S400000x128, .f32⟩
  | 112 => ⟨S400000x128, .f32⟩
  | 113 => ⟨S1x128, .f32⟩
  | 114 => ⟨S400000x128, .f32⟩
  | 115 => ⟨S400000x128, .f32⟩
  | 116 => ⟨S_, .f32⟩
  | 117 => ⟨S400000, .f32⟩
  | 118 => ⟨S400000x1, .f32⟩
  | 119 => ⟨S_, .f32⟩
  | 120 => ⟨S400000x1, .f32⟩
  | 121 => ⟨S400000x1, .f32⟩
  | 122 => ⟨S400000x128, .f32⟩
  | 123 => ⟨S400000x128, .f32⟩
  | 124 => ⟨S400000x128, .f32⟩
  | 125 => ⟨S_, .f32⟩
  | 126 => ⟨S400000, .f32⟩
  | 127 => ⟨S400000x1, .f32⟩
  | _ => ⟨S50000x128, .f32⟩

abbrev hbmTy0_1 (i : Nat) : BufTy := match i % 128 with
  | 0 => ⟨S_, .f32⟩
  | 1 => ⟨S400000x1, .f32⟩
  | 2 => ⟨S400000x1, .f32⟩
  | 3 => ⟨S400000x128, .f32⟩
  | 4 => ⟨S400000x128, .f32⟩
  | 5 => ⟨S_, .f32⟩
  | 6 => ⟨S400000x1, .f32⟩
  | 7 => ⟨S400000x1, .f32⟩
  | 8 => ⟨S400000x1, .f32⟩
  | 9 => ⟨S400000x128, .f32⟩
  | 10 => ⟨S400000x128, .f32⟩
  | 11 => ⟨S1x128, .f32⟩
  | 12 => ⟨S400000x128, .f32⟩
  | 13 => ⟨S400000x128, .f32⟩
  | 14 => ⟨S1x128, .f32⟩
  | 15 => ⟨S400000x128, .f32⟩
  | 16 => ⟨S400000x128, .f32⟩
  | 17 => ⟨S_, .f32⟩
  | 18 => ⟨S400000x128, .f32⟩
  | 19 => ⟨S400000x128, .f32⟩
  | 20 => ⟨S400000x1, .f32⟩
  | 21 => ⟨S1x1, .f32⟩
  | 22 => ⟨S400000x1, .f32⟩
  | 23 => ⟨S400000x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_c_1 : Ref sig .tc := ⟨.hbm, 30, rfl⟩
abbrev main_v11 : Ref sig .tc := ⟨.hbm, 31, rfl⟩
abbrev main_v12 : Ref sig .tc := ⟨.hbm, 32, rfl⟩
abbrev main_c_2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst : Ref sig .tc := ⟨.hbm, 44, rfl⟩
abbrev main_v23 : Ref sig .tc := ⟨.hbm, 45, rfl⟩
abbrev main_v24 : Ref sig .tc := ⟨.hbm, 46, rfl⟩
abbrev main_cst_3 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_4 : Ref sig .tc := ⟨.hbm, 53, rfl⟩
abbrev main_v30 : Ref sig .tc := ⟨.hbm, 54, rfl⟩
abbrev main_v31 : Ref sig .tc := ⟨.hbm, 55, rfl⟩
abbrev main_cst_5 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_6 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_call0_cst : Ref sig .tc := ⟨.hbm, 73, rfl⟩
abbrev main_call0_v0 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_7 : Ref sig .tc := ⟨.hbm, 80, rfl⟩
abbrev main_v52 : Ref sig .tc := ⟨.hbm, 81, rfl⟩
abbrev main_v53 : Ref sig .tc := ⟨.hbm, 82, rfl⟩
abbrev main_cst_8 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_9 : Ref sig .tc := ⟨.hbm, 89, rfl⟩
abbrev main_v59 : Ref sig .tc := ⟨.hbm, 90, rfl⟩
abbrev main_v60 : Ref sig .tc := ⟨.hbm, 91, rfl⟩
abbrev main_cst_10 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_11 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_call1_cst : Ref sig .tc := ⟨.hbm, 109, rfl⟩
abbrev main_call1_v0 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_cst_12 : Ref sig .tc := ⟨.hbm, 116, rfl⟩
abbrev main_v81 : Ref sig .tc := ⟨.hbm, 117, rfl⟩
abbrev main_v82 : Ref sig .tc := ⟨.hbm, 118, rfl⟩
abbrev main_cst_13 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_cst_14 : Ref sig .tc := ⟨.hbm, 125, rfl⟩
abbrev main_v88 : Ref sig .tc := ⟨.hbm, 126, rfl⟩
abbrev main_v89 : Ref sig .tc := ⟨.hbm, 127, rfl⟩
abbrev main_cst_15 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_cst_16 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_call2_cst : Ref sig .tc := ⟨.hbm, 145, rfl⟩
abbrev main_call2_v0 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  concatenates_S400000x128_S400000x128_S400000x128_S400000x384_d1 : Shape.Concatenates [S400000x128, S400000x128, S400000x128] S400000x384 1
  bcast_S128_S1x128_1 : S128.BroadcastsInDim S1x128 (![1] : Fin 1 → Fin S1x128.rank)
  bcast_S1x128_S400000x128_0_1 : S1x128.BroadcastsInDim S400000x128 (![0, 1] : Fin 2 → Fin S400000x128.rank)
  reducesTo_S400000x128_S400000_d1 : S400000x128.ReducesTo [1] S400000
  h_S_ : 0 < S_.numel
  bcast_S_S400000x1 : S_.BroadcastsInDim S400000x1 (![] : Fin 0 → Fin S400000x1.rank)
  bcast_S400000x1_S400000x128_0_1 : S400000x1.BroadcastsInDim S400000x128 (![0, 1] : Fin 2 → Fin S400000x128.rank)
  bcast_S_S400000x128 : S_.BroadcastsInDim S400000x128 (![] : Fin 0 → Fin S400000x128.rank)
  bcast_S1_S1x1_1 : S1.BroadcastsInDim S1x1 (![1] : Fin 1 → Fin S1x1.rank)
  bcast_S1x1_S400000x1_0_1 : S1x1.BroadcastsInDim S400000x1 (![0, 1] : Fin 2 → Fin S400000x1.rank)
  gather_S50000x128_S400000x1_S400000x128_1_0_n_n_0_1_1128_wf : GatherDims.WF S50000x128 S400000x1 S400000x128 [1] [0] [] [0] [] 1 ![1, 128]
  dot_S400000x384_S384x128_S400000x128_1_0_0_1_n_n_wf : DotDims.WF S400000x384 S384x128 S400000x128 [1] [0] [0] [1] [] []
  dot_S400000x128_S128x128_S400000x128_1_0_0_1_n_n_wf : DotDims.WF S400000x128 S128x128 S400000x128 [1] [0] [0] [1] [] []
  dot_S400000x128_S128x1_S400000x1_1_0_0_1_n_n_wf : DotDims.WF S400000x128 S128x1 S400000x1 [1] [0] [0] [1] [] []

variable [Facts₀]

def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def dot_S400000x384_S384x128_S400000x128_1_0_0_1_n_n : DotDims S400000x384 S384x128 S400000x128 where
  lhsContracting := [1]
  rhsContracting := [0]
  lhsNonContracting := [0]
  rhsNonContracting := [1]
  lhsBatch := []
  rhsBatch := []
  wf := dot_S400000x384_S384x128_S400000x128_1_0_0_1_n_n_wf
def dot_S400000x128_S128x128_S400000x128_1_0_0_1_n_n : DotDims S400000x128 S128x128 S400000x128 where
  lhsContracting := [1]
  rhsContracting := [0]
  lhsNonContracting := [0]
  rhsNonContracting := [1]
  lhsBatch := []
  rhsBatch := []
  wf := dot_S400000x128_S128x128_S400000x128_1_0_0_1_n_n_wf
def dot_S400000x128_S128x1_S400000x1_1_0_0_1_n_n : DotDims S400000x128 S128x1 S400000x1 where
  lhsContracting := [1]
  rhsContracting := [0]
  lhsNonContracting := [0]
  rhsNonContracting := [1]
  lhsBatch := []
  rhsBatch := []
  wf := dot_S400000x128_S128x1_S400000x1_1_0_0_1_n_n_wf

class Facts : Prop extends Facts₀ where

variable [Facts]
-- ==== Proof.Spec.lean ====
/-
  The edge score, as mathematics: what both programs compute for one edge, on the extended reals.

  An edge's features are three rows of 128 numbers: the source node's row, the destination node's row and the
  edge's own row. Layer 0 multiplies their concatenation (384 numbers) by a 384 x 128 matrix; written row block by
  row block that is the sum of three 128-term products, one per row. Each of the three hidden layers then normalises
  its 128 pre-activations (subtract their mean, multiply by the inverse square root of their mean squared deviation
  plus a small constant, scale and shift per coordinate) and clips below at zero. The score is one last inner
  product plus a bias.

  The three float words that occur (128, the small constant, zero) are kept as words: both programs carry the same
  ones, so they are never evaluated.
-/
import Idealize.ShloMosaic.PureOps.Ideal
import Idealize.ShloMosaic.PureOps.Ideal.Laws
import Idealize.ShloMosaic.Lib.ValueIdx

noncomputable section

namespace EdgeScore

open Idealize.ShloMosaic Idealize.ShloMosaic.ValueIdx

/-- The divisor of a mean over 128 coordinates, as the float word both programs carry. -/
abbrev width : EReal := Ideal.ofBits .f32 0x43000000#32
/-- The small constant added to a variance before the inverse square root. -/
abbrev eps : EReal := Ideal.ofBits .f32 0x3727C5AC#32
/-- The float zero word. -/
abbrev zero : EReal := Ideal.ofBits .f32 0x00000000#32

/-- The mean of a row: its sum divided by the width. -/
def mean (h : Fin 128 → EReal) : EReal := Ideal.div (∑ k : Fin 128, h k) width

/-- A row's deviation from its mean, squared, coordinate by coordinate. -/
def sqdev (h : Fin 128 → EReal) (k : Fin 128) : EReal := (h k - mean h) * (h k - mean h)

/-- Layer normalisation of a row with per-coordinate scale `g` and shift `b`. -/
def norm (h g b : Fin 128 → EReal) (j : Fin 128) : EReal :=
  (h j - mean h) * Ideal.rsqrt (mean (sqdev h) + eps) * g j + b j

/-- Normalise, then clip below at zero. -/
def act (h g b : Fin 128 → EReal) (j : Fin 128) : EReal := max (norm h g b j) zero

/-- A dense layer on a row: inner products with the columns of `W`, plus the bias. -/
def dense {K N : ℕ} (a : Fin K → EReal) (W : Fin K → Fin N → EReal) (b : Fin N → EReal) (j : Fin N) : EReal :=
  (∑ k : Fin K, a k * W k j) + b j

/-- Layer 0 written row block by row block: three 128-term products, then the bias. -/
def dense3 (xs xd e : Fin 128 → EReal) (Wa Wb Wc : Fin 128 → Fin 128 → EReal) (b : Fin 128 → EReal) (j : Fin 128) : EReal :=
  ((∑ k : Fin 128, xs k * Wa k j) + (∑ k : Fin 128, xd k * Wb k j)) + (∑ k : Fin 128, e k * Wc k j) + b j

/-- The score of one edge. -/
def score (xs xd e : Fin 128 → EReal) (Wa Wb Wc : Fin 128 → Fin 128 → EReal) (b0 g0 be0 : Fin 128 → EReal)
    (W1 : Fin 128 → Fin 128 → EReal) (b1 g1 be1 : Fin 128 → EReal)
    (W2 : Fin 128 → Fin 128 → EReal) (b2 g2 be2 : Fin 128 → EReal)
    (W3 : Fin 128 → Fin 1 → EReal) (b3 : Fin 1 → EReal) (o : Fin 1) : EReal :=
  dense (act (dense (act (dense (act (dense3 xs xd e Wa Wb Wc b0) g0 be0) W1 b1) g1 be1) W2 b2) g2 be2) W3 b3 o

/-- A matrix of extended reals, indexed as the programs index a rank-2 array. -/
abbrev Mat (n k : ℕ) := (⟨2, ![n, k]⟩ : Shape).Idx → EReal
/-- A vector of extended reals, indexed as the programs index a rank-1 array. -/
abbrev Vec1 (n : ℕ) := (⟨1, ![n]⟩ : Shape).Idx → EReal

/-- Row `r` of a matrix with 128 columns. -/
def rowOf {n : ℕ} (X : Mat n 128) (r : Fin n) (k : Fin 128) : EReal := X (ix2 r k)
/-- A matrix as a function of its two coordinates. -/
def entries {n k : ℕ} (W : Mat n k) (a : Fin n) (b : Fin k) : EReal := W (ix2 a b)
/-- A vector as a function of its coordinate. -/
def coords {n : ℕ} (v : Vec1 n) (a : Fin n) : EReal := v (ix1 a)

/-- The scores of all 400000 edges, from the three row families (source rows, destination rows, edge rows), the
    first layer's matrix given as its three 128-row blocks, and the remaining weights. -/
def scoresOfBlocks (xs xd e : Mat 400000 128) (Wa Wb Wc : Mat 128 128) (b0 g0 be0 : Vec1 128)
    (W1 : Mat 128 128) (b1 g1 be1 : Vec1 128) (W2 : Mat 128 128) (b2 g2 be2 : Vec1 128)
    (W3 : Mat 128 1) (b3 : Vec1 1) : Mat 400000 1 := fun i =>
  score (rowOf xs (i 0)) (rowOf xd (i 0)) (rowOf e (i 0)) (entries Wa) (entries Wb) (entries Wc) (coords b0) (coords g0) (coords be0)
    (entries W1) (coords b1) (coords g1) (coords be1) (entries W2) (coords b2) (coords g2) (coords be2) (entries W3) (coords b3) (i 1)

/-- Rows `o` to `o + 127` of a matrix with 384 rows. -/
def rowBlock (W0 : Mat 384 128) (o : ℕ) (ho : o + 128 ≤ 384) : Mat 128 128 := fun i =>
  W0 (ix2 (⟨o + (i 0).val, by have h : (i 0).val < 128 := (i 0).isLt; omega⟩ : Fin 384) (i 1))

/-- The same scores with the first layer's 384 x 128 matrix given whole. -/
def scores (xs xd e : Mat 400000 128) (W0 : Mat 384 128) (b0 g0 be0 : Vec1 128)
    (W1 : Mat 128 128) (b1 g1 be1 : Vec1 128) (W2 : Mat 128 128) (b2 g2 be2 : Vec1 128)
    (W3 : Mat 128 1) (b3 : Vec1 1) : Mat 400000 1 :=
  scoresOfBlocks xs xd e (rowBlock W0 0 (by omega)) (rowBlock W0 128 (by omega)) (rowBlock W0 256 (by omega)) b0 g0 be0
    W1 b1 g1 be1 W2 b2 g2 be2 W3 b3

/-- A sum over 384 coordinates is the sum of its three consecutive runs of 128: only the order of additions
    changes, so this holds on the extended reals with no finiteness. -/
theorem sum_three_runs (f : Fin 384 → EReal) :
    ∑ k : Fin 384, f k
      = ((∑ k : Fin 128, f ⟨k.val, by omega⟩) + (∑ k : Fin 128, f ⟨128 + k.val, by omega⟩))
        + (∑ k : Fin 128, f ⟨256 + k.val, by omega⟩) := by
  have e1 := Fin.sum_univ_add (M := EReal) (a := 256) (b := 128) f
  have e2 := Fin.sum_univ_add (M := EReal) (a := 128) (b := 128) (fun i : Fin (128 + 128) => f (Fin.castAdd 128 i))
  rw [e1, e2]
  refine congrArg₂ (· + ·) (congrArg₂ (· + ·) ?_ ?_) ?_
  · exact Finset.sum_congr rfl fun k _ => congrArg f (Fin.ext rfl)
  · exact Finset.sum_congr rfl fun k _ => congrArg f (Fin.ext rfl)
  · exact Finset.sum_congr rfl fun k _ => congrArg f (Fin.ext rfl)

end EdgeScore

end
-- ==== Proof.KerRows.lean ====
/-
  What the kernel body leaves in its output block, read one entry at a time: entry (p, 0) of the 4000 x 1 block is
  the edge score of row p of the three 4000 x 128 input blocks under the resident weights.
-/
import proofs.«418558_j52072183497375_1_alg».proof.Proof.Gen.KernelIdeal.Frame
import proofs.«418558_j52072183497375_1_alg».proof.Proof.Spec
import Idealize.ShloMosaic.Lib.ValueLayout

noncomputable section

namespace Cert.KernelIdeal.Rows

open Cert.KernelIdeal Cert.KernelIdeal.Gen Idealize.ShloMosaic Idealize.ShloMosaic.TcCoe Idealize.ShloMosaic.ValueIdx

/-! ## Layout operations at an index given by coordinates -/

/-- A vector of extent a cast to a column of shape a x 1 reads, at (i, u), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column of shape a x 1 broadcast along rows to a x b reads, at (p, c), the column at (p, 0). -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector of extent b laid along every row of an a x b array reads, at (p, c), the vector at c. -/
theorem rowBroadcast_apply {α : Type} {a b : ℕ} (v : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- The sum along each row of a 4000 x 128 array, read at row p. -/
theorem rowSum_apply (src : FVec Ideal S4000x128 .f32) (hφ : FKind.Formats .f32)
    (hacc : (0x00000000#32 : BitVec 32) = 0x00000000#32) (p : Fin 4000) :
    multiReduction (F := Ideal) .add [1] S4000 src 0x00000000#32 reduces_S4000x128_S4000 hφ hacc (ix1 p)
      = ∑ k : Fin 128, src (ix2 p k) := by
  refine (Ideal.multiReduction_add_single src 0x00000000#32 reduces_S4000x128_S4000 hφ hacc (ix1 p)).trans ?_
  refine Finset.sum_congr rfl fun k _ => congrArg src ?_
  funext a
  match a with
  | ⟨0, _⟩ => rfl
  | ⟨1, _⟩ => rfl

/-! ## The two matrix products at an index -/

theorem lhs_mm_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs_mm_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem rhs_mm_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem rhs_mm_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The product into a zero accumulator, read at (p, j): the sum over k of row p of the left operand against
    column j of the right one. -/
theorem mm_apply (a : FVec Ideal S4000x128 .bf16) (w : FVec Ideal S128x128 .bf16) (p : Fin 4000) (j : Fin 128) :
    matmul dot_S4000x128_S128x128_S4000x128_1_0_0_1_n_n none a w (constant (F := Ideal) S4000x128 .f32 0x00000000#32) (ix2 p j)
      = ∑ k : Fin 128, a (ix2 p k) * w (ix2 k j) := by
  refine (Ideal.matmul_constant_zero_apply dot_S4000x128_S128x128_S4000x128_1_0_0_1_n_n none a w (ix2 p j)).trans ?_
  rw [← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p j) ((contrEquiv1 dot_S4000x128_S128x128_S4000x128_1_0_0_1_n_n 128 rfl rfl).symm k) = ix2 p k := funext fun c => Fin.ext (by
    match c with
    | ⟨0, _⟩ => exact lhs_mm_0 _ _
    | ⟨1, _⟩ => exact (lhs_mm_1 _ _).trans hk)
  have er : dot_S4000x128_S128x128_S4000x128_1_0_0_1_n_n.rhsIdx (ix2 p j) ((contrEquiv1 dot_S4000x128_S128x128_S4000x128_1_0_0_1_n_n 128 rfl rfl).symm k) = ix2 k j := funext fun c => Fin.ext (by
    match c with
    | ⟨0, _⟩ => exact (rhs_mm_0 _ _).trans hk
    | ⟨1, _⟩ => exact rhs_mm_1 _ _)
  rw [el, er]

theorem lhs_mv_0 (i : S4000x1.Idx) (q : dot_S4000x128_S128x1_S4000x1_1_0_0_1_n_n.contr.Idx) :
    (dot_S4000x128_S128x1_S4000x1_1_0_0_1_n_n.lhsIdx i q 0).val = (i 0).val := by
  unfold DotDims.lhsIdx
  rw [dif_neg (show ¬(0 : Fin S4000x128.rank) ∈ dot_S4000x128_S128x1_S4000x1_1_0_0_1_n_n.lhsBatch by decide), dif_pos (show (0 : Fin S4000x128.rank) ∈ dot_S4000x128_S128x1_S4000x1_1_0_0_1_n_n.lhsNonContracting by decide)]
  rfl
theorem lhs_mv_1 (i : S4000x1.Idx) (q : dot_S4000x128_S128x1_S4000x1_1_0_0_1_n_n.contr.Idx) :
    (dot_S4000x128_S128x1_S4000x1_1_0_0_1_n_n.lhsIdx i q 1).val = (q ⟨0, by decide⟩).val :=
  dot_S4000x128_S128x1_S4000x1_1_0_0_1_n_n.lhsIdx_val_of_single rfl i q
theorem rhs_mv_0 (i : S4000x1.Idx) (q : dot_S4000x128_S128x1_S4000x1_1_0_0_1_n_n.contr.Idx) :
    (dot_S4000x128_S128x1_S4000x1_1_0_0_1_n_n.rhsIdx i q 0).val = (q ⟨0, by decide⟩).val :=
  dot_S4000x128_S128x1_S4000x1_1_0_0_1_n_n.rhsIdx_val_of_single rfl i q
theorem rhs_mv_1 (i : S4000x1.Idx) (q : dot_S4000x128_S128x1_S4000x1_1_0_0_1_n_n.contr.Idx) :
    (dot_S4000x128_S128x1_S4000x1_1_0_0_1_n_n.rhsIdx i q 1).val = (i 1).val := by
  unfold DotDims.rhsIdx
  rw [dif_neg (show ¬(1 : Fin S128x1.rank) ∈ dot_S4000x128_S128x1_S4000x1_1_0_0_1_n_n.rhsBatch by decide), dif_pos (show (1 : Fin S128x1.rank) ∈ dot_S4000x128_S128x1_S4000x1_1_0_0_1_n_n.rhsNonContracting by decide)]
  rfl

/-- The product into a zero accumulator, read at (p, j): the sum over k of row p of the left operand against
    column j of the right one. -/
theorem mv_apply (a : FVec Ideal S4000x128 .bf16) (w : FVec Ideal S128x1 .bf16) (p : Fin 4000) (j : Fin 1) :
    matmul dot_S4000x128_S128x1_S4000x1_1_0_0_1_n_n none a w (constant (F := Ideal) S4000x1 .f32 0x00000000#32) (ix2 p j)
      = ∑ k : Fin 128, a (ix2 p k) * w (ix2 k j) := by
  refine (Ideal.matmul_constant_zero_apply dot_S4000x128_S128x1_S4000x1_1_0_0_1_n_n none a w (ix2 p j)).trans ?_
  rw [← Equiv.sum_comp (contrEquiv1 dot_S4000x128_S128x1_S4000x1_1_0_0_1_n_n 128 rfl rfl).symm]
  refine Finset.sum_congr rfl fun k _ => ?_
  have hk := contrEquiv1_symm_val dot_S4000x128_S128x1_S4000x1_1_0_0_1_n_n 128 rfl rfl k
  have el : dot_S4000x128_S128x1_S4000x1_1_0_0_1_n_n.lhsIdx (ix2 p j) ((contrEquiv1 dot_S4000x128_S128x1_S4000x1_1_0_0_1_n_n 128 rfl rfl).symm k) = ix2 p k := funext fun c => Fin.ext (by
    match c with
    | ⟨0, _⟩ => exact lhs_mv_0 _ _
    | ⟨1, _⟩ => exact (lhs_mv_1 _ _).trans hk)
  have er : dot_S4000x128_S128x1_S4000x1_1_0_0_1_n_n.rhsIdx (ix2 p j) ((contrEquiv1 dot_S4000x128_S128x1_S4000x1_1_0_0_1_n_n 128 rfl rfl).symm k) = ix2 k j := funext fun c => Fin.ext (by
    match c with
    | ⟨0, _⟩ => exact (rhs_mv_0 _ _).trans hk
    | ⟨1, _⟩ => exact rhs_mv_1 _ _)
  rw [el, er]

/-! ## The body's values, row by row -/

/-- An inverse square root at an index is that of the element. -/
theorem rsqrt_apply {s : Shape} {φ : FTy} (a : FVec Ideal s φ) (i : s.Idx) : rsqrt a i = Ideal.rsqrt (a i) := rfl

/-- Layer 0's pre-activations of row p of the three input blocks. -/
def pre0 (x0 x1 x2 : Vec Ideal S4000x128 .f32) (x3 x4 x5 : Vec Ideal S128x128 .f32) (x6 : Vec Ideal S128 .f32)
    (p : Fin 4000) : Fin 128 → EReal :=
  EdgeScore.dense3 (EdgeScore.rowOf x0 p) (EdgeScore.rowOf x1 p) (EdgeScore.rowOf x2 p)
    (EdgeScore.entries x3) (EdgeScore.entries x4) (EdgeScore.entries x5) (EdgeScore.coords x6)

/-- Layer 0: three products into zero accumulators, added, plus the bias. -/
theorem pay2_apply (x0 x1 x2 : Vec Ideal S4000x128 .f32) (x3 x4 x5 : Vec Ideal S128x128 .f32) (x6 : Vec Ideal S128 .f32)
    (p : Fin 4000) (j : Fin 128) :
    k0_pay2 (F := Ideal) x0 x1 x2 x3 x4 x5 x6 (ix2 p j) = pre0 x0 x1 x2 x3 x4 x5 x6 p j := by
  unfold k0_pay2 pre0
  simp only [shapeCast_self]
  rw [addf_apply, addf_apply, addf_apply, mm_apply, mm_apply, mm_apply, rowBroadcast_apply]
  rfl

/-- The row means of layer 0's pre-activations, kept as a column. -/
theorem pay3_apply (x0 x1 x2 : Vec Ideal S4000x128 .f32) (x3 x4 x5 : Vec Ideal S128x128 .f32) (x6 : Vec Ideal S128 .f32)
    (p : Fin 4000) (o : Fin 1) :
    k0_pay3 (F := Ideal) x0 x1 x2 x3 x4 x5 x6 (ix2 p o) = EdgeScore.mean (pre0 x0 x1 x2 x3 x4 x5 x6 p) := by
  unfold k0_pay3
  rw [divf_apply, shapeCast_a_a1_apply, rowSum_apply]
  simp only [pay2_apply]
  rfl

/-- The row sums of squared deviations of layer 0's pre-activations, kept as a column. -/
theorem pay4_apply (x0 x1 x2 : Vec Ideal S4000x128 .f32) (x3 x4 x5 : Vec Ideal S128x128 .f32) (x6 : Vec Ideal S128 .f32)
    (p : Fin 4000) (o : Fin 1) :
    k0_pay4 (F := Ideal) x0 x1 x2 x3 x4 x5 x6 (ix2 p o)
      = ∑ k : Fin 128, EdgeScore.sqdev (pre0 x0 x1 x2 x3 x4 x5 x6 p) k := by
  unfold k0_pay4
  rw [shapeCast_a_a1_apply, rowSum_apply]
  refine Finset.sum_congr rfl fun k _ => ?_
  rw [mulf_apply, subf_apply, broadcastTo_a1_ab_apply, pay3_apply, pay2_apply]
  rfl

/-! ## The stages of a layer on a 4000 x 128 array, read on row p

Each lemma takes the array as a variable together with what its row p is known to be, so that the stages compose. -/

section Stages
open EdgeScore

/-- A row sum, when the row is known. -/
theorem rowSum_of (h : FVec Ideal S4000x128 .f32) (hφ : FKind.Formats .f32)
    (hacc : (0x00000000#32 : BitVec 32) = 0x00000000#32) (p : Fin 4000) (r : Fin 128 → EReal)
    (hr : ∀ k, h (ix2 p k) = r k) :
    multiReduction (F := Ideal) .add [1] S4000 h 0x00000000#32 reduces_S4000x128_S4000 hφ hacc (ix1 p) = ∑ k : Fin 128, r k :=
  (rowSum_apply h hφ hacc p).trans (Finset.sum_congr rfl fun k _ => hr k)

/-- The column of row means. -/
theorem meanCol_of (h : FVec Ideal S4000x128 .f32) (hφ : FKind.Formats .f32)
    (hacc : (0x00000000#32 : BitVec 32) = 0x00000000#32) (p : Fin 4000) (o : Fin 1) (r : Fin 128 → EReal)
    (hr : ∀ k, h (ix2 p k) = r k) :
    divf (shapeCast S4000x1 (multiReduction (F := Ideal) .add [1] S4000 h 0x00000000#32 reduces_S4000x128_S4000 hφ hacc)
        shapeCasts_S4000_S4000x1) (broadcast S4000x1 (Scalar.ofBits .f32 0x43000000#32)) (ix2 p o) = mean r := by
  rw [divf_apply, shapeCast_a_a1_apply, rowSum_of h hφ hacc p r hr]
  rfl

/-- A row minus its mean, the mean given as a column. -/
theorem centred_of (h : FVec Ideal S4000x128 .f32) (m : FVec Ideal S4000x1 .f32) (p : Fin 4000) (r : Fin 128 → EReal)
    (μ : EReal) (hr : ∀ k, h (ix2 p k) = r k) (hm : m (ix2 p (0 : Fin 1)) = μ) (k : Fin 128) :
    subf h (broadcastTo S4000x128 m broadcasts_S4000x1_S4000x128) (ix2 p k) = r k - μ := by
  rw [subf_apply, broadcastTo_a1_ab_apply, hr, hm]

/-- The column of row sums of squared deviations from a given column. -/
theorem sqSumCol_of (h : FVec Ideal S4000x128 .f32) (m : FVec Ideal S4000x1 .f32) (hφ : FKind.Formats .f32)
    (hacc : (0x00000000#32 : BitVec 32) = 0x00000000#32) (p : Fin 4000) (o : Fin 1) (r : Fin 128 → EReal) (μ : EReal)
    (hr : ∀ k, h (ix2 p k) = r k) (hm : m (ix2 p (0 : Fin 1)) = μ) :
    shapeCast S4000x1 (multiReduction (F := Ideal) .add [1] S4000
        (mulf (subf h (broadcastTo S4000x128 m broadcasts_S4000x1_S4000x128))
          (subf h (broadcastTo S4000x128 m broadcasts_S4000x1_S4000x128)))
        0x00000000#32 reduces_S4000x128_S4000 hφ hacc) shapeCasts_S4000_S4000x1 (ix2 p o)
      = ∑ k : Fin 128, (r k - μ) * (r k - μ) := by
  rw [shapeCast_a_a1_apply]
  refine rowSum_of _ hφ hacc p _ fun k => ?_
  rw [mulf_apply, centred_of h m p r μ hr hm k]

/-- A centred row times the inverse square root of (sum of squares / width + the small constant). -/
theorem normCore_of (h : FVec Ideal S4000x128 .f32) (m q : FVec Ideal S4000x1 .f32) (p : Fin 4000) (r : Fin 128 → EReal)
    (μ σ : EReal) (hr : ∀ k, h (ix2 p k) = r k) (hm : m (ix2 p (0 : Fin 1)) = μ) (hq : q (ix2 p (0 : Fin 1)) = σ)
    (j : Fin 128) :
    mulf (subf h (broadcastTo S4000x128 m broadcasts_S4000x1_S4000x128))
        (broadcastTo S4000x128 (rsqrt (addf (divf q (broadcast S4000x1 (Scalar.ofBits .f32 0x43000000#32)))
          (broadcast S4000x1 (Scalar.ofBits .f32 0x3727C5AC#32)))) broadcasts_S4000x1_S4000x128) (ix2 p j)
      = (r j - μ) * Ideal.rsqrt (Ideal.div σ width + eps) := by
  rw [mulf_apply, centred_of h m p r μ hr hm j, broadcastTo_a1_ab_apply, rsqrt_apply, addf_apply, divf_apply, hq]
  rfl

/-- Scale, shift by a bias laid along rows, clip below at zero. -/
theorem affineRelu_of (t G : FVec Ideal S4000x128 .f32) (b : Vec Ideal S128 .f32) (p : Fin 4000) (τ γ : Fin 128 → EReal)
    (ht : ∀ k, t (ix2 p k) = τ k) (hG : ∀ k, G (ix2 p k) = γ k) (k : Fin 128) :
    maximumf (addf (mulf t G) (broadcastTo S4000x128 (shapeCast S1x128 b shapeCasts_S128_S1x128) broadcasts_S1x128_S4000x128))
        (broadcast S4000x128 (Scalar.ofBits .f32 0x00000000#32)) (ix2 p k)
      = max (τ k * γ k + coords b k) zero := by
  rw [maximumf_apply, addf_apply, mulf_apply, ht, hG, rowBroadcast_apply]
  rfl

/-- A 128 x 128 dense layer on a row: the product into a zero accumulator, plus the bias laid along rows. -/
theorem denseRow_of (a : FVec Ideal S4000x128 .f32) (W : Vec Ideal S128x128 .f32) (b : Vec Ideal S128 .f32) (p : Fin 4000)
    (α : Fin 128 → EReal) (ha : ∀ k, a (ix2 p k) = α k) (j : Fin 128) :
    addf (matmul dot_S4000x128_S128x128_S4000x128_1_0_0_1_n_n none (truncf .bf16 a bitsLt_bf16_f32)
          (truncf .bf16 W bitsLt_bf16_f32) (constant (F := Ideal) S4000x128 .f32 0x00000000#32))
        (broadcastTo S4000x128 (shapeCast S1x128 b shapeCasts_S128_S1x128) broadcasts_S1x128_S4000x128) (ix2 p j)
      = dense α (entries W) (coords b) j := by
  rw [addf_apply, mm_apply, rowBroadcast_apply]
  unfold dense
  refine congrArg (· + _) (Finset.sum_congr rfl fun k _ => ?_)
  rw [truncf_apply, truncf_apply, ha]
  rfl

/-- The whole normalisation of an array whose row p is known: centre, divide by the deviation. -/
theorem lnCore_of (h : FVec Ideal S4000x128 .f32) (hφ : FKind.Formats .f32)
    (hacc : (0x00000000#32 : BitVec 32) = 0x00000000#32) (p : Fin 4000) (r : Fin 128 → EReal)
    (hr : ∀ k, h (ix2 p k) = r k) (j : Fin 128) :
    mulf (subf h (broadcastTo S4000x128
          (divf (shapeCast S4000x1 (multiReduction (F := Ideal) .add [1] S4000 h 0x00000000#32 reduces_S4000x128_S4000 hφ hacc)
            shapeCasts_S4000_S4000x1) (broadcast S4000x1 (Scalar.ofBits .f32 0x43000000#32)))
          broadcasts_S4000x1_S4000x128))
        (broadcastTo S4000x128 (rsqrt (addf (divf
          (shapeCast S4000x1 (multiReduction (F := Ideal) .add [1] S4000
            (mulf
              (subf h (broadcastTo S4000x128
                (divf (shapeCast S4000x1 (multiReduction (F := Ideal) .add [1] S4000 h 0x00000000#32 reduces_S4000x128_S4000 hφ hacc)
                  shapeCasts_S4000_S4000x1) (broadcast S4000x1 (Scalar.ofBits .f32 0x43000000#32)))
                broadcasts_S4000x1_S4000x128))
              (subf h (broadcastTo S4000x128
                (divf (shapeCast S4000x1 (multiReduction (F := Ideal) .add [1] S4000 h 0x00000000#32 reduces_S4000x128_S4000 hφ hacc)
                  shapeCasts_S4000_S4000x1) (broadcast S4000x1 (Scalar.ofBits .f32 0x43000000#32)))
                broadcasts_S4000x1_S4000x128)))
            0x00000000#32 reduces_S4000x128_S4000 hφ hacc) shapeCasts_S4000_S4000x1)
          (broadcast S4000x1 (Scalar.ofBits .f32 0x43000000#32)))
          (broadcast S4000x1 (Scalar.ofBits .f32 0x3727C5AC#32)))) broadcasts_S4000x1_S4000x128) (ix2 p j)
      = (r j - mean r) * Ideal.rsqrt (mean (sqdev r) + eps) :=
  normCore_of h _ _ p r (mean r) (∑ k : Fin 128, sqdev r k) hr (meanCol_of h hφ hacc p 0 r hr)
    (sqSumCol_of h _ hφ hacc p 0 r (mean r) hr (meanCol_of h hφ hacc p 0 r hr)) j

end Stages

/-! ## The remaining payloads on row p -/

section Payloads
open EdgeScore

/-- Layer 0's normalisation and clip, layer 1's product and bias, then layer 1's centred value times its inverse
    deviation (before the scale), from layer 0's pre-activations, mean and sum of squared deviations on row p. -/
theorem pay5_apply (v25 : FVec Ideal S4000x128 .f32) (v26 v27 : Vec Ideal S128 .f32) (v31 v36 : FVec Ideal S4000x1 .f32)
    (v54 : Vec Ideal S128x128 .f32) (v58 : Vec Ideal S128 .f32) (p : Fin 4000) (r : Fin 128 → EReal)
    (h25 : ∀ k, v25 (ix2 p k) = r k) (h31 : v31 (ix2 p (0 : Fin 1)) = mean r)
    (h36 : v36 (ix2 p (0 : Fin 1)) = ∑ k : Fin 128, sqdev r k) (j : Fin 128) :
    k0_pay5 (F := Ideal) v25 v26 v27 v31 v36 (Scalar.ofBits .f32 0x43000000#32) v54 v58 (ix2 p j)
      = (dense (act r (coords v26) (coords v27)) (entries v54) (coords v58) j
          - mean (dense (act r (coords v26) (coords v27)) (entries v54) (coords v58)))
        * Ideal.rsqrt (mean (sqdev (dense (act r (coords v26) (coords v27)) (entries v54) (coords v58))) + eps) := by
  unfold k0_pay5
  exact lnCore_of _ _ _ p (dense (act r (coords v26) (coords v27)) (entries v54) (coords v58))
    (fun k => denseRow_of _ v54 v58 p (act r (coords v26) (coords v27))
      (fun k' => affineRelu_of _ _ v27 p _ (coords v26)
        (fun k'' => normCore_of v25 v31 v36 p r (mean r) (∑ i : Fin 128, sqdev r i) h25 h31 h36 k'')
        (fun k'' => rowBroadcast_apply v26 shapeCasts_S128_S1x128 broadcasts_S1x128_S4000x128 p k'') k') k) j

/-- Layer 1's scale laid along rows. -/
theorem pay6_apply (v62 : Vec Ideal S128 .f32) (p : Fin 4000) (k : Fin 128) :
    k0_pay6 (F := Ideal) v62 (ix2 p k) = coords v62 k := by
  unfold k0_pay6
  exact rowBroadcast_apply v62 shapeCasts_S128_S1x128 broadcasts_S1x128_S4000x128 p k

/-- Layer 1's scale, shift and clip, layer 2's product and bias, layer 2's normalisation and clip. -/
theorem pay8_apply (v63 : Vec Ideal S128 .f32) (v81 v83 : FVec Ideal S4000x128 .f32) (v90 : Vec Ideal S128x128 .f32)
    (v94 v98 v99 : Vec Ideal S128 .f32) (p : Fin 4000) (c γ : Fin 128 → EReal)
    (h81 : ∀ k, v81 (ix2 p k) = c k) (h83 : ∀ k, v83 (ix2 p k) = γ k) (j : Fin 128) :
    k0_pay8 (F := Ideal) v63 v81 v83 v90 v94 v98 v99 (ix2 p j)
      = act (dense (fun k => max (c k * γ k + coords v63 k) zero) (entries v90) (coords v94)) (coords v98) (coords v99) j := by
  unfold k0_pay8
  rw [truncf_apply]
  exact affineRelu_of _ _ v99 p _ (coords v98)
    (fun k => lnCore_of _ _ _ p (dense (fun k => max (c k * γ k + coords v63 k) zero) (entries v90) (coords v94))
      (fun k' => denseRow_of _ v90 v94 p (fun k => max (c k * γ k + coords v63 k) zero)
        (fun k'' => affineRelu_of v81 v83 v63 p c γ h81 h83 k'') k') k)
    (fun k => rowBroadcast_apply v98 shapeCasts_S128_S1x128 broadcasts_S1x128_S4000x128 p k) j

/-- The last layer: a 128 x 1 product into a zero accumulator, plus the bias. -/
theorem pay1_apply (v126 : Vec Ideal S128x1 .f32) (v128 : FVec Ideal S4000x128 .bf16) (v130 : Vec Ideal S1 .f32)
    (p : Fin 4000) (α : Fin 128 → EReal) (h128 : ∀ k, v128 (ix2 p k) = α k) (o : Fin 1) :
    k0_pay1 (F := Ideal) (k0_pay7 v126) v128 v130 (ix2 p o) = dense α (entries v126) (coords v130) o := by
  unfold k0_pay1 k0_pay7
  rw [addf_apply, mv_apply, rowBroadcast_apply]
  unfold dense
  refine congrArg (· + _) (Finset.sum_congr rfl fun k _ => ?_)
  rw [truncf_apply, h128]
  rfl

end Payloads

/-- Entry (p, o) of the block the body stores is the score of row p. -/
theorem out_apply (x0 x1 x2 : Vec Ideal S4000x128 .f32) (x3 x4 x5 : Vec Ideal S128x128 .f32) (x6 x7 x8 : Vec Ideal S128 .f32)
    (x9 : Vec Ideal S128x128 .f32) (x10 x11 x12 : Vec Ideal S128 .f32) (x13 : Vec Ideal S128x128 .f32)
    (x14 x15 x16 : Vec Ideal S128 .f32) (x17 : Vec Ideal S128x1 .f32) (x18 : Vec Ideal S1 .f32) (p : Fin 4000) (o : Fin 1) :
    out0_19 (F := Ideal) x0 x1 x2 x3 x4 x5 x6 x7 x8 x9 x10 x11 x12 x13 x14 x15 x16 x17 x18 (ix2 p o)
      = EdgeScore.score (EdgeScore.rowOf x0 p) (EdgeScore.rowOf x1 p) (EdgeScore.rowOf x2 p)
          (EdgeScore.entries x3) (EdgeScore.entries x4) (EdgeScore.entries x5)
          (EdgeScore.coords x6) (EdgeScore.coords x7) (EdgeScore.coords x8)
          (EdgeScore.entries x9) (EdgeScore.coords x10) (EdgeScore.coords x11) (EdgeScore.coords x12)
          (EdgeScore.entries x13) (EdgeScore.coords x14) (EdgeScore.coords x15) (EdgeScore.coords x16)
          (EdgeScore.entries x17) (EdgeScore.coords x18) o := by
  have hz2 : (![0, 0] : Fin 2 → Nat) = fun _ => 0 := funext fun a => by fin_cases a <;> rfl
  have hz1 : (![0] : Fin 1 → Nat) = fun _ => 0 := funext fun a => by fin_cases a <;> rfl
  unfold out0_19
  rw [View.canon_unit_zero hz2]
  simp only [View.ld_unit_zero (S := S4000x128) hz2, View.ld_unit_zero (S := S128x128) hz2,
    View.ld_unit_zero (S := S128) hz1, View.ld_unit_zero (S := S128x1) hz2, View.ld_unit_zero (S := S1) hz1]
  exact pay1_apply x17 _ x18 p _ (fun k => pay8_apply x12 _ _ x13 x14 x15 x16 p _ _
      (fun k' => pay5_apply _ x7 x8 _ _ x9 x10 p (pre0 x0 x1 x2 x3 x4 x5 x6 p)
        (fun k'' => pay2_apply x0 x1 x2 x3 x4 x5 x6 p k'') (pay3_apply x0 x1 x2 x3 x4 x5 x6 p 0)
        (pay4_apply x0 x1 x2 x3 x4 x5 x6 p 0) k')
      (fun k' => pay6_apply x11 p k') k) o

end Cert.KernelIdeal.Rows

end
-- ==== Proof.KerBlocks.lean ====
/- (three hand-written lemma texts, a row-block read, a whole 2-d window read and a whole 1-d window read, laid out for
   windows 0 to 18 by substituting the window's number, array, block sizes and index facts; and the table of index facts).

  Where each window's block sits. The kernel's grid has 100 points. At point t the three edge-indexed inputs (windows
  0, 1, 2) and the output (window 19) sit at block (t, 0), blocks of 4000 rows; every weight array (windows 3 to 18) is
  one block, at index 0. So row p of an edge-indexed block is row 4000 t + p of its array, and a weight's block is the
  whole array. -/
import proofs.«418558_j52072183497375_1_alg».proof.Proof.Gen.KernelIdeal.Frame
import proofs.«418558_j52072183497375_1_alg».proof.Proof.Spec
import Idealize.ShloMosaic.Lib.Pipeline.Value
import Idealize.ShloMosaic.Lib.ValueIdx

set_option maxRecDepth 16384
set_option Elab.async false

noncomputable section

namespace Cert.KernelIdeal.Blocks

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-- The printed index maps, decided once over the 100 grid points. -/
theorem index_maps : ∀ t : Fin cfg0.N,
    win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_19.index t (0 : Fin 2) = t.val
    ∧ win0_19.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_9.index t (0 : Fin 2) = 0
    ∧ win0_9.index t (1 : Fin 2) = 0
    ∧ win0_13.index t (0 : Fin 2) = 0
    ∧ win0_13.index t (1 : Fin 2) = 0
    ∧ win0_17.index t (0 : Fin 2) = 0
    ∧ win0_17.index t (1 : Fin 2) = 0
    ∧ win0_6.index t (0 : Fin 1) = 0
    ∧ win0_7.index t (0 : Fin 1) = 0
    ∧ win0_8.index t (0 : Fin 1) = 0
    ∧ win0_10.index t (0 : Fin 1) = 0
    ∧ win0_11.index t (0 : Fin 1) = 0
    ∧ win0_12.index t (0 : Fin 1) = 0
    ∧ win0_14.index t (0 : Fin 1) = 0
    ∧ win0_15.index t (0 : Fin 1) = 0
    ∧ win0_16.index t (0 : Fin 1) = 0
    ∧ win0_18.index t (0 : Fin 1) = 0 :=
  (by decide +kernel : ∀ t : Fin grid0.N, _)

/-- Row p of window 0's block at point t is row 4000 t + p of its array. -/
theorem rows0 (c : Dev nD) (t : Fin cfg0.N) (p : Fin 4000) (h : t.val * 4000 + p.val < 400000) :
    EdgeScore.rowOf (iblk m c 0 t) p = EdgeScore.rowOf (V m c main_v4) (⟨t.val * 4000 + p.val, h⟩ : Fin 400000) := by
  obtain ⟨r0a, r0b, r1a, r1b, r2a, r2b, r19a, r19b, w3a, w3b, w4a, w4b, w5a, w5b, w9a, w9b, w13a, w13b, w17a, w17b, v6, v7, v8, v10, v11, v12, v14, v15, v16, v18⟩ := index_maps t
  funext k
  show V m c main_v4 (((cfg0.win 0).blk t).view.emb (ix2 p k)) = V m c main_v4 (ix2 (⟨t.val * 4000 + p.val, h⟩ : Fin 400000) k)
  refine congrArg (V m c main_v4) ?_
  funext a; apply Fin.ext
  match a with
  | ⟨0, _⟩ => show win0_0.index t (0 : Fin 2) * 4000 + 1 * p.val = t.val * 4000 + p.val; rw [r0a]; omega
  | ⟨1, _⟩ => show win0_0.index t (1 : Fin 2) * 128 + 1 * k.val = k.val; rw [r0b]; omega

/-- Row p of window 1's block at point t is row 4000 t + p of its array. -/
theorem rows1 (c : Dev nD) (t : Fin cfg0.N) (p : Fin 4000) (h : t.val * 4000 + p.val < 400000) :
    EdgeScore.rowOf (iblk m c 1 t) p = EdgeScore.rowOf (V m c main_v5) (⟨t.val * 4000 + p.val, h⟩ : Fin 400000) := by
  obtain ⟨r0a, r0b, r1a, r1b, r2a, r2b, r19a, r19b, w3a, w3b, w4a, w4b, w5a, w5b, w9a, w9b, w13a, w13b, w17a, w17b, v6, v7, v8, v10, v11, v12, v14, v15, v16, v18⟩ := index_maps t
  funext k
  show V m c main_v5 (((cfg0.win 1).blk t).view.emb (ix2 p k)) = V m c main_v5 (ix2 (⟨t.val * 4000 + p.val, h⟩ : Fin 400000) k)
  refine congrArg (V m c main_v5) ?_
  funext a; apply Fin.ext
  match a with
  | ⟨0, _⟩ => show win0_1.index t (0 : Fin 2) * 4000 + 1 * p.val = t.val * 4000 + p.val; rw [r1a]; omega
  | ⟨1, _⟩ => show win0_1.index t (1 : Fin 2) * 128 + 1 * k.val = k.val; rw [r1b]; omega

/-- Row p of window 2's block at point t is row 4000 t + p of its array. -/
theorem rows2 (c : Dev nD) (t : Fin cfg0.N) (p : Fin 4000) (h : t.val * 4000 + p.val < 400000) :
    EdgeScore.rowOf (iblk m c 2 t) p = EdgeScore.rowOf (V m c main_arg2) (⟨t.val * 4000 + p.val, h⟩ : Fin 400000) := by
  obtain ⟨r0a, r0b, r1a, r1b, r2a, r2b, r19a, r19b, w3a, w3b, w4a, w4b, w5a, w5b, w9a, w9b, w13a, w13b, w17a, w17b, v6, v7, v8, v10, v11, v12, v14, v15, v16, v18⟩ := index_maps t
  funext k
  show V m c main_arg2 (((cfg0.win 2).blk t).view.emb (ix2 p k)) = V m c main_arg2 (ix2 (⟨t.val * 4000 + p.val, h⟩ : Fin 400000) k)
  refine congrArg (V m c main_arg2) ?_
  funext a; apply Fin.ext
  match a with
  | ⟨0, _⟩ => show win0_2.index t (0 : Fin 2) * 4000 + 1 * p.val = t.val * 4000 + p.val; rw [r2a]; omega
  | ⟨1, _⟩ => show win0_2.index t (1 : Fin 2) * 128 + 1 * k.val = k.val; rw [r2b]; omega

/-- Window 3's block is its whole array. -/
theorem whole3 (c : Dev nD) (t : Fin cfg0.N) : EdgeScore.entries (iblk m c 3 t) = EdgeScore.entries (V m c main_v6) := by
  obtain ⟨r0a, r0b, r1a, r1b, r2a, r2b, r19a, r19b, w3a, w3b, w4a, w4b, w5a, w5b, w9a, w9b, w13a, w13b, w17a, w17b, v6, v7, v8, v10, v11, v12, v14, v15, v16, v18⟩ := index_maps t
  funext a b
  show V m c main_v6 (((cfg0.win 3).blk t).view.emb (ix2 a b)) = V m c main_v6 (ix2 a b)
  refine congrArg (V m c main_v6) ?_
  funext d; apply Fin.ext
  match d with
  | ⟨0, _⟩ => show win0_3.index t (0 : Fin 2) * 128 + 1 * a.val = a.val; rw [w3a]; omega
  | ⟨1, _⟩ => show win0_3.index t (1 : Fin 2) * 128 + 1 * b.val = b.val; rw [w3b]; omega

/-- Window 4's block is its whole array. -/
theorem whole4 (c : Dev nD) (t : Fin cfg0.N) : EdgeScore.entries (iblk m c 4 t) = EdgeScore.entries (V m c main_v7) := by
  obtain ⟨r0a, r0b, r1a, r1b, r2a, r2b, r19a, r19b, w3a, w3b, w4a, w4b, w5a, w5b, w9a, w9b, w13a, w13b, w17a, w17b, v6, v7, v8, v10, v11, v12, v14, v15, v16, v18⟩ := index_maps t
  funext a b
  show V m c main_v7 (((cfg0.win 4).blk t).view.emb (ix2 a b)) = V m c main_v7 (ix2 a b)
  refine congrArg (V m c main_v7) ?_
  funext d; apply Fin.ext
  match d with
  | ⟨0, _⟩ => show win0_4.index t (0 : Fin 2) * 128 + 1 * a.val = a.val; rw [w4a]; omega
  | ⟨1, _⟩ => show win0_4.index t (1 : Fin 2) * 128 + 1 * b.val = b.val; rw [w4b]; omega

/-- Window 5's block is its whole array. -/
theorem whole5 (c : Dev nD) (t : Fin cfg0.N) : EdgeScore.entries (iblk m c 5 t) = EdgeScore.entries (V m c main_v8) := by
  obtain ⟨r0a, r0b, r1a, r1b, r2a, r2b, r19a, r19b, w3a, w3b, w4a, w4b, w5a, w5b, w9a, w9b, w13a, w13b, w17a, w17b, v6, v7, v8, v10, v11, v12, v14, v15, v16, v18⟩ := index_maps t
  funext a b
  show V m c main_v8 (((cfg0.win 5).blk t).view.emb (ix2 a b)) = V m c main_v8 (ix2 a b)
  refine congrArg (V m c main_v8) ?_
  funext d; apply Fin.ext
  match d with
  | ⟨0, _⟩ => show win0_5.index t (0 : Fin 2) * 128 + 1 * a.val = a.val; rw [w5a]; omega
  | ⟨1, _⟩ => show win0_5.index t (1 : Fin 2) * 128 + 1 * b.val = b.val; rw [w5b]; omega

/-- Window 9's block is its whole array. -/
theorem whole9 (c : Dev nD) (t : Fin cfg0.N) : EdgeScore.entries (iblk m c 9 t) = EdgeScore.entries (V m c main_arg7) := by
  obtain ⟨r0a, r0b, r1a, r1b, r2a, r2b, r19a, r19b, w3a, w3b, w4a, w4b, w5a, w5b, w9a, w9b, w13a, w13b, w17a, w17b, v6, v7, v8, v10, v11, v12, v14, v15, v16, v18⟩ := index_maps t
  funext a b
  show V m c main_arg7 (((cfg0.win 9).blk t).view.emb (ix2 a b)) = V m c main_arg7 (ix2 a b)
  refine congrArg (V m c main_arg7) ?_
  funext d; apply Fin.ext
  match d with
  | ⟨0, _⟩ => show win0_9.index t (0 : Fin 2) * 128 + 1 * a.val = a.val; rw [w9a]; omega
  | ⟨1, _⟩ => show win0_9.index t (1 : Fin 2) * 128 + 1 * b.val = b.val; rw [w9b]; omega

/-- Window 13's block is its whole array. -/
theorem whole13 (c : Dev nD) (t : Fin cfg0.N) : EdgeScore.entries (iblk m c 13 t) = EdgeScore.entries (V m c main_arg11) := by
  obtain ⟨r0a, r0b, r1a, r1b, r2a, r2b, r19a, r19b, w3a, w3b, w4a, w4b, w5a, w5b, w9a, w9b, w13a, w13b, w17a, w17b, v6, v7, v8, v10, v11, v12, v14, v15, v16, v18⟩ := index_maps t
  funext a b
  show V m c main_arg11 (((cfg0.win 13).blk t).view.emb (ix2 a b)) = V m c main_arg11 (ix2 a b)
  refine congrArg (V m c main_arg11) ?_
  funext d; apply Fin.ext
  match d with
  | ⟨0, _⟩ => show win0_13.index t (0 : Fin 2) * 128 + 1 * a.val = a.val; rw [w13a]; omega
  | ⟨1, _⟩ => show win0_13.index t (1 : Fin 2) * 128 + 1 * b.val = b.val; rw [w13b]; omega

/-- Window 17's block is its whole array. -/
theorem whole17 (c : Dev nD) (t : Fin cfg0.N) : EdgeScore.entries (iblk m c 17 t) = EdgeScore.entries (V m c main_arg15) := by
  obtain ⟨r0a, r0b, r1a, r1b, r2a, r2b, r19a, r19b, w3a, w3b, w4a, w4b, w5a, w5b, w9a, w9b, w13a, w13b, w17a, w17b, v6, v7, v8, v10, v11, v12, v14, v15, v16, v18⟩ := index_maps t
  funext a b
  show V m c main_arg15 (((cfg0.win 17).blk t).view.emb (ix2 a b)) = V m c main_arg15 (ix2 a b)
  refine congrArg (V m c main_arg15) ?_
  funext d; apply Fin.ext
  match d with
  | ⟨0, _⟩ => show win0_17.index t (0 : Fin 2) * 128 + 1 * a.val = a.val; rw [w17a]; omega
  | ⟨1, _⟩ => show win0_17.index t (1 : Fin 2) * 1 + 1 * b.val = b.val; rw [w17b]; omega

/-- Window 6's block is its whole array. -/
theorem whole6 (c : Dev nD) (t : Fin cfg0.N) : EdgeScore.coords (iblk m c 6 t) = EdgeScore.coords (V m c main_arg4) := by
  obtain ⟨r0a, r0b, r1a, r1b, r2a, r2b, r19a, r19b, w3a, w3b, w4a, w4b, w5a, w5b, w9a, w9b, w13a, w13b, w17a, w17b, v6, v7, v8, v10, v11, v12, v14, v15, v16, v18⟩ := index_maps t
  funext a
  show V m c main_arg4 (((cfg0.win 6).blk t).view.emb (ix1 a)) = V m c main_arg4 (ix1 a)
  refine congrArg (V m c main_arg4) ?_
  funext d; apply Fin.ext
  match d with
  | ⟨0, _⟩ => show win0_6.index t (0 : Fin 1) * 128 + 1 * a.val = a.val; rw [v6]; omega

/-- Window 7's block is its whole array. -/
theorem whole7 (c : Dev nD) (t : Fin cfg0.N) : EdgeScore.coords (iblk m c 7 t) = EdgeScore.coords (V m c main_arg5) := by
  obtain ⟨r0a, r0b, r1a, r1b, r2a, r2b, r19a, r19b, w3a, w3b, w4a, w4b, w5a, w5b, w9a, w9b, w13a, w13b, w17a, w17b, v6, v7, v8, v10, v11, v12, v14, v15, v16, v18⟩ := index_maps t
  funext a
  show V m c main_arg5 (((cfg0.win 7).blk t).view.emb (ix1 a)) = V m c main_arg5 (ix1 a)
  refine congrArg (V m c main_arg5) ?_
  funext d; apply Fin.ext
  match d with
  | ⟨0, _⟩ => show win0_7.index t (0 : Fin 1) * 128 + 1 * a.val = a.val; rw [v7]; omega

/-- Window 8's block is its whole array. -/
theorem whole8 (c : Dev nD) (t : Fin cfg0.N) : EdgeScore.coords (iblk m c 8 t) = EdgeScore.coords (V m c main_arg6) := by
  obtain ⟨r0a, r0b, r1a, r1b, r2a, r2b, r19a, r19b, w3a, w3b, w4a, w4b, w5a, w5b, w9a, w9b, w13a, w13b, w17a, w17b, v6, v7, v8, v10, v11, v12, v14, v15, v16, v18⟩ := index_maps t
  funext a
  show V m c main_arg6 (((cfg0.win 8).blk t).view.emb (ix1 a)) = V m c main_arg6 (ix1 a)
  refine congrArg (V m c main_arg6) ?_
  funext d; apply Fin.ext
  match d with
  | ⟨0, _⟩ => show win0_8.index t (0 : Fin 1) * 128 + 1 * a.val = a.val; rw [v8]; omega

/-- Window 10's block is its whole array. -/
theorem whole10 (c : Dev nD) (t : Fin cfg0.N) : EdgeScore.coords (iblk m c 10 t) = EdgeScore.coords (V m c main_arg8) := by
  obtain ⟨r0a, r0b, r1a, r1b, r2a, r2b, r19a, r19b, w3a, w3b, w4a, w4b, w5a, w5b, w9a, w9b, w13a, w13b, w17a, w17b, v6, v7, v8, v10, v11, v12, v14, v15, v16, v18⟩ := index_maps t
  funext a
  show V m c main_arg8 (((cfg0.win 10).blk t).view.emb (ix1 a)) = V m c main_arg8 (ix1 a)
  refine congrArg (V m c main_arg8) ?_
  funext d; apply Fin.ext
  match d with
  | ⟨0, _⟩ => show win0_10.index t (0 : Fin 1) * 128 + 1 * a.val = a.val; rw [v10]; omega

/-- Window 11's block is its whole array. -/
theorem whole11 (c : Dev nD) (t : Fin cfg0.N) : EdgeScore.coords (iblk m c 11 t) = EdgeScore.coords (V m c main_arg9) := by
  obtain ⟨r0a, r0b, r1a, r1b, r2a, r2b, r19a, r19b, w3a, w3b, w4a, w4b, w5a, w5b, w9a, w9b, w13a, w13b, w17a, w17b, v6, v7, v8, v10, v11, v12, v14, v15, v16, v18⟩ := index_maps t
  funext a
  show V m c main_arg9 (((cfg0.win 11).blk t).view.emb (ix1 a)) = V m c main_arg9 (ix1 a)
  refine congrArg (V m c main_arg9) ?_
  funext d; apply Fin.ext
  match d with
  | ⟨0, _⟩ => show win0_11.index t (0 : Fin 1) * 128 + 1 * a.val = a.val; rw [v11]; omega

/-- Window 12's block is its whole array. -/
theorem whole12 (c : Dev nD) (t : Fin cfg0.N) : EdgeScore.coords (iblk m c 12 t) = EdgeScore.coords (V m c main_arg10) := by
  obtain ⟨r0a, r0b, r1a, r1b, r2a, r2b, r19a, r19b, w3a, w3b, w4a, w4b, w5a, w5b, w9a, w9b, w13a, w13b, w17a, w17b, v6, v7, v8, v10, v11, v12, v14, v15, v16, v18⟩ := index_maps t
  funext a
  show V m c main_arg10 (((cfg0.win 12).blk t).view.emb (ix1 a)) = V m c main_arg10 (ix1 a)
  refine congrArg (V m c main_arg10) ?_
  funext d; apply Fin.ext
  match d with
  | ⟨0, _⟩ => show win0_12.index t (0 : Fin 1) * 128 + 1 * a.val = a.val; rw [v12]; omega

/-- Window 14's block is its whole array. -/
theorem whole14 (c : Dev nD) (t : Fin cfg0.N) : EdgeScore.coords (iblk m c 14 t) = EdgeScore.coords (V m c main_arg12) := by
  obtain ⟨r0a, r0b, r1a, r1b, r2a, r2b, r19a, r19b, w3a, w3b, w4a, w4b, w5a, w5b, w9a, w9b, w13a, w13b, w17a, w17b, v6, v7, v8, v10, v11, v12, v14, v15, v16, v18⟩ := index_maps t
  funext a
  show V m c main_arg12 (((cfg0.win 14).blk t).view.emb (ix1 a)) = V m c main_arg12 (ix1 a)
  refine congrArg (V m c main_arg12) ?_
  funext d; apply Fin.ext
  match d with
  | ⟨0, _⟩ => show win0_14.index t (0 : Fin 1) * 128 + 1 * a.val = a.val; rw [v14]; omega

/-- Window 15's block is its whole array. -/
theorem whole15 (c : Dev nD) (t : Fin cfg0.N) : EdgeScore.coords (iblk m c 15 t) = EdgeScore.coords (V m c main_arg13) := by
  obtain ⟨r0a, r0b, r1a, r1b, r2a, r2b, r19a, r19b, w3a, w3b, w4a, w4b, w5a, w5b, w9a, w9b, w13a, w13b, w17a, w17b, v6, v7, v8, v10, v11, v12, v14, v15, v16, v18⟩ := index_maps t
  funext a
  show V m c main_arg13 (((cfg0.win 15).blk t).view.emb (ix1 a)) = V m c main_arg13 (ix1 a)
  refine congrArg (V m c main_arg13) ?_
  funext d; apply Fin.ext
  match d with
  | ⟨0, _⟩ => show win0_15.index t (0 : Fin 1) * 128 + 1 * a.val = a.val; rw [v15]; omega

/-- Window 16's block is its whole array. -/
theorem whole16 (c : Dev nD) (t : Fin cfg0.N) : EdgeScore.coords (iblk m c 16 t) = EdgeScore.coords (V m c main_arg14) := by
  obtain ⟨r0a, r0b, r1a, r1b, r2a, r2b, r19a, r19b, w3a, w3b, w4a, w4b, w5a, w5b, w9a, w9b, w13a, w13b, w17a, w17b, v6, v7, v8, v10, v11, v12, v14, v15, v16, v18⟩ := index_maps t
  funext a
  show V m c main_arg14 (((cfg0.win 16).blk t).view.emb (ix1 a)) = V m c main_arg14 (ix1 a)
  refine congrArg (V m c main_arg14) ?_
  funext d; apply Fin.ext
  match d with
  | ⟨0, _⟩ => show win0_16.index t (0 : Fin 1) * 128 + 1 * a.val = a.val; rw [v16]; omega

/-- Window 18's block is its whole array. -/
theorem whole18 (c : Dev nD) (t : Fin cfg0.N) : EdgeScore.coords (iblk m c 18 t) = EdgeScore.coords (V m c main_arg16) := by
  obtain ⟨r0a, r0b, r1a, r1b, r2a, r2b, r19a, r19b, w3a, w3b, w4a, w4b, w5a, w5b, w9a, w9b, w13a, w13b, w17a, w17b, v6, v7, v8, v10, v11, v12, v14, v15, v16, v18⟩ := index_maps t
  funext a
  show V m c main_arg16 (((cfg0.win 18).blk t).view.emb (ix1 a)) = V m c main_arg16 (ix1 a)
  refine congrArg (V m c main_arg16) ?_
  funext d; apply Fin.ext
  match d with
  | ⟨0, _⟩ => show win0_18.index t (0 : Fin 1) * 1 + 1 * a.val = a.val; rw [v18]; omega

end Cert.KernelIdeal.Blocks

end
-- ==== Proof.KerArray.lean ====
/-
  From the blocks to the array. Point t of the kernel's 100-point grid writes back rows 4000 t to 4000 t + 3999 of the
  400000 x 1 output. Entry (p, 0) of what it writes is the score of row p of its input blocks, which is row 4000 t + p
  of the arrays the region finds: so what point t writes back is block t of the array of all scores. The 100 blocks
  tile the output, row r lying in block r / 4000, so after the run the output array is the array of all scores.
-/
import proofs.«418558_j52072183497375_1_alg».proof.Proof.Gen.KernelIdeal.Value
import proofs.«418558_j52072183497375_1_alg».proof.Proof.KerRows
import proofs.«418558_j52072183497375_1_alg».proof.Proof.KerBlocks
import proofs.«418558_j52072183497375_1_alg».proof.Proof.Spec
import Idealize.ShloMosaic.Lib.Pipeline.Value
import Idealize.ShloMosaic.Lib.ValueIdx

set_option maxRecDepth 16384

noncomputable section

namespace Cert.KernelIdeal.Scores

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The array of all scores, of the arrays as the region finds them. -/
def all (c : Dev nD) : S400000x1.Idx → EReal :=
  EdgeScore.scoresOfBlocks (V m c main_v4) (V m c main_v5) (V m c main_arg2) (V m c main_v6) (V m c main_v7) (V m c main_v8) (V m c main_arg4) (V m c main_arg5) (V m c main_arg6) (V m c main_arg7) (V m c main_arg8) (V m c main_arg9) (V m c main_arg10) (V m c main_arg11) (V m c main_arg12) (V m c main_arg13) (V m c main_arg14) (V m c main_arg15) (V m c main_arg16)

/-- Entry (r, o) of the array of all scores is the score of row r. -/
theorem all_apply (c : Dev nD) (r : Fin 400000) (o : Fin 1) :
    all m c (ix2 r o) = EdgeScore.score (EdgeScore.rowOf (V m c main_v4) r) (EdgeScore.rowOf (V m c main_v5) r) (EdgeScore.rowOf (V m c main_arg2) r)
      (EdgeScore.entries (V m c main_v6)) (EdgeScore.entries (V m c main_v7)) (EdgeScore.entries (V m c main_v8))
      (EdgeScore.coords (V m c main_arg4)) (EdgeScore.coords (V m c main_arg5)) (EdgeScore.coords (V m c main_arg6))
      (EdgeScore.entries (V m c main_arg7)) (EdgeScore.coords (V m c main_arg8)) (EdgeScore.coords (V m c main_arg9)) (EdgeScore.coords (V m c main_arg10))
      (EdgeScore.entries (V m c main_arg11)) (EdgeScore.coords (V m c main_arg12)) (EdgeScore.coords (V m c main_arg13)) (EdgeScore.coords (V m c main_arg14))
      (EdgeScore.entries (V m c main_arg15)) (EdgeScore.coords (V m c main_arg16)) o := rfl

/-- Entry (p, o) of the output block at point t is entry (4000 t + p, o) of the output array. -/
theorem out_emb (t : Fin cfg0.N) (p : Fin 4000) (o : Fin 1) (h : t.val * 4000 + p.val < 400000) :
    ((cfg0.win 19).blk t).view.emb (ix2 p o) = ix2 (⟨t.val * 4000 + p.val, h⟩ : Fin 400000) o := by
  obtain ⟨r0a, r0b, r1a, r1b, r2a, r2b, r19a, r19b, w3a, w3b, w4a, w4b, w5a, w5b, w9a, w9b, w13a, w13b, w17a, w17b, v6, v7, v8, v10, v11, v12, v14, v15, v16, v18⟩ := Blocks.index_maps t
  funext a; apply Fin.ext
  match a with
  | ⟨0, _⟩ => show win0_19.index t (0 : Fin 2) * 4000 + 1 * p.val = t.val * 4000 + p.val; rw [r19a]; omega
  | ⟨1, _⟩ => show win0_19.index t (1 : Fin 2) * 1 + 1 * o.val = o.val; rw [r19b]; omega

/-- The body's output at entry (p, o), at point t, is the score of row 4000 t + p of the arrays. -/
theorem out_at (c : Dev nD) (t : Fin cfg0.N) (p : Fin 4000) (o : Fin 1) (h : t.val * 4000 + p.val < 400000) :
    out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (ix2 p o) = all m c (ix2 (⟨t.val * 4000 + p.val, h⟩ : Fin 400000) o) := by
  refine (Rows.out_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) p o).trans ?_
  rw [all_apply, Blocks.rows0 m c t p h, Blocks.rows1 m c t p h, Blocks.rows2 m c t p h, Blocks.whole3 m c t, Blocks.whole4 m c t,
    Blocks.whole5 m c t, Blocks.whole6 m c t, Blocks.whole7 m c t, Blocks.whole8 m c t, Blocks.whole9 m c t, Blocks.whole10 m c t,
    Blocks.whole11 m c t, Blocks.whole12 m c t, Blocks.whole13 m c t, Blocks.whole14 m c t, Blocks.whole15 m c t, Blocks.whole16 m c t,
    Blocks.whole17 m c t, Blocks.whole18 m c t]

/-- WHAT POINT t WRITES BACK is block t of the array of all scores. -/
theorem flushed_eq (c : Dev nD) (t : Fin cfg0.N) :
    (dats m 0 c).flushed 19 t = ((cfg0.win 19).blk t).view.read (Elt Ideal) (all m c) := by
  rw [Value.flushed19]
  funext y
  obtain ⟨p, o, rfl⟩ : ∃ (p : Fin 4000) (o : Fin 1), y = ix2 p o := ⟨y 0, y 1, eq_ix2 y⟩
  have ht : t.val < 100 := t.isLt
  have hp : p.val < 4000 := p.isLt
  have h : t.val * 4000 + p.val < 400000 := by omega
  show out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (ix2 p o) = all m c (((cfg0.win 19).blk t).view.emb (ix2 p o))
  rw [out_emb t p o h]
  exact out_at m c t p o h

/-- An index of the output array is in point t's block iff each coordinate is in the block's range on its axis. -/
theorem mem_blk (t : Fin cfg0.N) (i : S400000x1.Idx) :
    i ∈ ((cfg0.win 19).blk t).view.set ↔ ∀ a : Fin 2, win0_19.index t a * S4000x1.size a ≤ (i a).val ∧ (i a).val < win0_19.index t a * S4000x1.size a + S4000x1.size a := by
  show i ∈ ((View.whole main_v9).slice (win0_19.rect t)).set ↔ _
  rw [View.set_slice_whole, Rect.mem_set_unit]
  exact Iff.rfl

/-- Every row of the output lies in some point's block: row r in block r / 4000. -/
theorem cover (i : S400000x1.Idx) : ∃ t : Fin cfg0.N, (cfg0.win 19).flush t = true ∧ i ∈ ((cfg0.win 19).blk t).view.set := by
  have hi0 : (i 0).val < 400000 := (i 0).isLt
  have hi1 : (i 1).val < 1 := (i 1).isLt
  let t : Fin cfg0.N := ⟨(i 0).val / 4000, by show (i 0).val / 4000 < 100; omega⟩
  have tv : t.val = (i 0).val / 4000 := rfl
  obtain ⟨r0a, r0b, r1a, r1b, r2a, r2b, r19a, r19b, w3a, w3b, w4a, w4b, w5a, w5b, w9a, w9b, w13a, w13b, w17a, w17b, v6, v7, v8, v10, v11, v12, v14, v15, v16, v18⟩ := Blocks.index_maps t
  refine ⟨t, flush0_19 t, ?_⟩
  rw [mem_blk]
  intro a
  match a with
  | ⟨0, _⟩ => show win0_19.index t (0 : Fin 2) * 4000 ≤ (i 0).val ∧ (i 0).val < win0_19.index t (0 : Fin 2) * 4000 + 4000; rw [r19a, tv]; omega
  | ⟨1, _⟩ => show win0_19.index t (1 : Fin 2) * 1 ≤ (i 1).val ∧ (i 1).val < win0_19.index t (1 : Fin 2) * 1 + 1; rw [r19b]; omega

/-- THE OUTPUT ARRAY after the run is the array of all scores. -/
theorem final (c : Dev nD) : (dats m 0 c).arrAt 19 cfg0.N = all m c :=
  (dats m 0 c).arrAt_eq_of_cover 19 (all m c) (fun t _ => flushed_eq m c t) cover

end Cert.KernelIdeal.Scores

end
-- ==== Proof.Words.lean ====
/-
  Facts about 32-bit index words, and about an `and` over a family of one-bit words.

  A node index is a 32-bit word read as a signed number. If it is at least 0 and below 50000, then: adding 50000 to
  negative indices (the wrap-around rule for negative positions) leaves it alone, and it passes the two range tests
  "at least 0" and "at most 49999". Such a word is small and non-negative, so its signed and unsigned readings agree
  and every comparison is a comparison of natural numbers.

  An `and` over one-bit words that starts from 1 and meets only 1s ends at 1.
-/
import Idealize.ShloMosaic.Lib.ReduceAll
import Idealize.ShloMosaic.Lib.StableHlo.Predicate

namespace EdgeScore.Words

open Idealize.ShloMosaic

theorem ofBool_eq_one (b : Bool) : BitVec.ofBool b = 1#1 ↔ b = true := by cases b <;> decide

theorem ofBool_ne_one (b : Bool) : BitVec.ofBool b ≠ 1#1 ↔ b = false := by cases b <;> decide

/-- The signed reading of a 32-bit word, by cases on its top bit. -/
theorem toInt_cases (w : BitVec 32) :
    (w.toNat < 2 ^ 31 ∧ w.toInt = w.toNat) ∨ (2 ^ 31 ≤ w.toNat ∧ w.toInt = (w.toNat : Int) - 2 ^ 32) := by
  have hw := w.isLt
  unfold BitVec.toInt
  by_cases h : 2 * w.toNat < 2 ^ 32
  · left; rw [if_pos h]; exact ⟨by omega, rfl⟩
  · right; rw [if_neg h]; exact ⟨by omega, rfl⟩

/-- A word that is at least 0 and below 50000, signed, has a value below 50000. -/
theorem toNat_lt (w : BitVec 32) (h0 : IntOp.cmpi .sge w 0#32 = 1#1) (h1 : IntOp.cmpi .slt w 50000#32 = 1#1) :
    w.toNat < 50000 := by
  unfold IntOp.cmpi at h0 h1
  rw [ofBool_eq_one] at h0 h1
  have z : (0#32 : BitVec 32).toInt = 0 := by decide
  have n : (50000#32 : BitVec 32).toInt = 50000 := by decide
  have g0 : (0#32 : BitVec 32).toInt ≤ w.toInt := by simpa [BitVec.sle] using h0
  have g1 : w.toInt < (50000#32 : BitVec 32).toInt := by simpa [BitVec.slt] using h1
  rw [z] at g0; rw [n] at g1
  rcases toInt_cases w with ⟨-, e⟩ | ⟨hb, e⟩ <;> rw [e] at g0 g1 <;> omega

/-- Such a word is not negative: the wrap-around test fails on it. -/
theorem not_negative (w : BitVec 32) (hw : w.toNat < 50000) : IntOp.cmpi .slt w 0#32 ≠ 1#1 := by
  intro h
  have := (StableHlo.Predicate.slt_iff_toNat (a := w) (b := 0#32) (by omega) (by decide)).1 h
  simp at this

/-- So the wrap-around rule returns it unchanged. -/
theorem wrap_eq (w : BitVec 32) (hw : w.toNat < 50000) :
    Scalar.select (IntOp.cmpi .slt w 0#32) (IntOp.addi w 50000#32) w = w := by
  unfold Scalar.select
  exact if_neg (not_negative w hw)

/-- It passes the lower range test. -/
theorem ge_zero (w : BitVec 32) (hw : w.toNat < 50000) : IntOp.cmpi .sge w 0#32 = 1#1 :=
  (StableHlo.Predicate.sge_iff_toNat (a := w) (b := 0#32) (by omega) (by decide)).2 (by simp)

/-- It passes the upper range test against 49999. -/
theorem le_last (w : BitVec 32) (hw : w.toNat < 50000) : IntOp.cmpi .sle w 49999#32 = 1#1 :=
  (StableHlo.Predicate.sle_iff_toNat (a := w) (b := 49999#32) (by omega) (by decide)).2
    (by have : (49999#32 : BitVec 32).toNat = 49999 := by decide
        omega)

/-- An `and`-fold from 1 over words that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_ones f hf l

/-- An `and`-reduction whose initial value is 1 and whose operand is 1 everywhere is 1 at every result index. -/
theorem reduce_andi_ones {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1)
    (j : t.Idx) : Host.reduce IntOp.andi x init h hu j = 1#1 := by
  rw [Host.reduce_eq_foldl, hinit]
  exact foldl_andi_ones x hx _

end EdgeScore.Words
-- ==== Proof.KerInputs.lean ====
/-
  What the kernel's one region finds in the arrays the host computed before it: the two families of gathered node
  rows and the three 128-row blocks of the first layer's matrix.

  The gather the kernel's program uses fills a row with a special float pattern when the row's node index is out of
  range: it tests every (wrapped) index against 0 and 49999, and selects the gathered row where both tests pass. For an
  edge table whose entries all have values below 50000 the wrap-around rule changes nothing, both tests pass
  everywhere, and the selection is the gathered array itself.
-/
import proofs.«418558_j52072183497375_1_alg».proof.Proof.Gen.KernelIdeal.Frame
import proofs.«418558_j52072183497375_1_alg».proof.Proof.Words
import proofs.«418558_j52072183497375_1_alg».proof.Proof.Spec
import Idealize.ShloMosaic.Lib.StableHlo.Run
import Idealize.ShloMosaic.Lib.StableHlo.Predicate
import Idealize.ShloMosaic.Lib.Pipeline.Value
import Idealize.ShloMosaic.Lib.ValueLayout

noncomputable section

namespace Cert.KernelIdeal.Inputs

open Cert.KernelIdeal Cert.KernelIdeal.Gen
open Idealize.ShloMosaic Idealize.ShloMosaic.TcCoe Idealize.SL.Sem Idealize.ShloMosaic.ValueIdx

variable {F : FTy → Type} [FloatOps F]

/-- Row 0 of the edge table: the source endpoints. -/
def srcOf (x1 : IVec S2x400000 32) : IVec S400000 32 :=
  shapeCast S400000 (extractStridedSlice S1x400000 ![0, 0] x1 slices_S2x400000_S1x400000_0_0) shapeCasts_S1x400000_S400000

/-- Row 1 of the edge table: the destination endpoints. -/
def dstOf (x1 : IVec S2x400000 32) : IVec S400000 32 :=
  shapeCast S400000 (extractStridedSlice S1x400000 ![1, 0] x1 slices_S2x400000_S1x400000_1_0) shapeCasts_S1x400000_S400000

/-- Negative positions count from the end; then the indices as a column. -/
def idxCol (w : IVec S400000 32) : IVec S400000x1 32 :=
  broadcastInDim S400000x1 ![0] bcast_S400000_S400000x1_0
    (select (cmpi .slt w (broadcastInDim S400000 ![] bcast_S_S400000 (constantI S_ 32 0#32)))
      (addi w (broadcastInDim S400000 ![] bcast_S_S400000 (constantI S_ 32 50000#32))) w)

/-- The node rows at the given endpoints. -/
def taken (x0 : FVec F S50000x128 .f32) (w : IVec S400000 32) : FVec F S400000x128 .f32 :=
  Host.gather gather_S50000x128_S400000x1_S400000x128_1_0_n_n_0_1_1128 x0 (idxCol w)

/-- Per edge: is the wrapped index at least 0 and at most 49999? -/
def inRange (w : IVec S400000 32) : IVec S400000 1 :=
  Host.reduce IntOp.andi
    (andi (cmpi .sge (idxCol w) (broadcastInDim S400000x1 ![] bcast_S_S400000x1 (constantI S_ 32 0#32)))
      (cmpi .sle (idxCol w) (broadcastInDim S400000x1 ![0, 1] bcast_S1x1_S400000x1_0_1
        (broadcastInDim S1x1 ![1] bcast_S1_S1x1_1 (constantI S1 32 49999#32)))))
    (constantI S_ 1 1#1) reducesTo_S400000x1_S400000_d1 h_S_

/-- The gathered rows where the index is in range, a fill pattern elsewhere. -/
def takenOrFill (x0 : FVec F S50000x128 .f32) (w : IVec S400000 32) : FVec F S400000x128 .f32 :=
  select (broadcastInDim S400000x128 ![0] bcast_S400000_S400000x128_0 (inRange w)) (taken x0 w)
    (broadcastInDim S400000x128 ![] bcast_S_S400000x128 (constant S_ .f32 0x7FC00000#32))

variable (m : (ℓ : Loc nD τ sig) → Buf (Elt F) ℓ)

set_option maxHeartbeats 4000000 in
/-- The region finds the source rows' array as the host's fill-guarded gather of the launch contents. -/
theorem V_src (c : Dev nD) :
    V m c main_v4 = takenOrFill (m ((c : Thread nD τ).loc main_arg0)) (srcOf (m ((c : Thread nD τ).loc main_arg1))) := by
  dsimp only [V]
  simp only [hostOps0, hostOps0_1, hostOps0_2, hostOps0_3, List.flatten_cons, List.flatten_nil, List.append_nil, List.cons_append,
    List.nil_append]
  after_results_simp
  simp only [StableHlo.TRef.ofBuf, StableHlo.TRef.toBuf, cast_eq]
  rfl

set_option maxHeartbeats 4000000 in
/-- The same for the destination rows. -/
theorem V_dst (c : Dev nD) :
    V m c main_v5 = takenOrFill (m ((c : Thread nD τ).loc main_arg0)) (dstOf (m ((c : Thread nD τ).loc main_arg1))) := by
  dsimp only [V]
  simp only [hostOps0, hostOps0_1, hostOps0_2, hostOps0_3, List.flatten_cons, List.flatten_nil, List.append_nil, List.cons_append,
    List.nil_append]
  after_results_simp
  simp only [StableHlo.TRef.ofBuf, StableHlo.TRef.toBuf, cast_eq]
  rfl

set_option maxHeartbeats 4000000 in
/-- The region finds rows 0 to 127 of the first layer's matrix in its own array. -/
theorem V_block0 (c : Dev nD) :
    V m c main_v6 = extractStridedSlice S128x128 ![0, 0] (m ((c : Thread nD τ).loc main_arg3)) slices_S384x128_S128x128_0_0 := by
  dsimp only [V]
  simp only [hostOps0, hostOps0_1, hostOps0_2, hostOps0_3, List.flatten_cons, List.flatten_nil, List.append_nil, List.cons_append,
    List.nil_append]
  after_results_simp

set_option maxHeartbeats 4000000 in
/-- Rows 128 to 255. -/
theorem V_block1 (c : Dev nD) :
    V m c main_v7 = extractStridedSlice S128x128 ![128, 0] (m ((c : Thread nD τ).loc main_arg3)) slices_S384x128_S128x128_128_0 := by
  dsimp only [V]
  simp only [hostOps0, hostOps0_1, hostOps0_2, hostOps0_3, List.flatten_cons, List.flatten_nil, List.append_nil, List.cons_append,
    List.nil_append]
  after_results_simp

set_option maxHeartbeats 4000000 in
/-- Rows 256 to 383. -/
theorem V_block2 (c : Dev nD) :
    V m c main_v8 = extractStridedSlice S128x128 ![256, 0] (m ((c : Thread nD τ).loc main_arg3)) slices_S384x128_S128x128_256_0 := by
  dsimp only [V]
  simp only [hostOps0, hostOps0_1, hostOps0_2, hostOps0_3, List.flatten_cons, List.flatten_nil, List.append_nil, List.cons_append,
    List.nil_append]
  after_results_simp

/-! ## In-range endpoints: the guard passes everywhere -/

/-- A row of the edge table, read at a position, is an entry of the table. -/
theorem srcOf_entry (x1 : IVec S2x400000 32) (e : S400000.Idx) : ∃ k, srcOf x1 e = x1 k := ⟨_, rfl⟩
theorem dstOf_entry (x1 : IVec S2x400000 32) (e : S400000.Idx) : ∃ k, dstOf x1 e = x1 k := ⟨_, rfl⟩

/-- The index column at a position is the wrap-around rule applied to some endpoint. -/
theorem idxCol_entry (w : IVec S400000 32) (i : S400000x1.Idx) :
    ∃ k, idxCol w i = Scalar.select (IntOp.cmpi .slt (w k) 0#32) (IntOp.addi (w k) 50000#32) (w k) := ⟨_, rfl⟩

/-- With every endpoint's value below 50000, so is every entry of the index column. -/
theorem idxCol_lt (w : IVec S400000 32) (hw : ∀ e, (w e).toNat < 50000) (i : S400000x1.Idx) : (idxCol w i).toNat < 50000 := by
  obtain ⟨k, e⟩ := idxCol_entry w i
  rw [e, EdgeScore.Words.wrap_eq _ (hw k)]
  exact hw k

/-- Then both range tests pass at every edge. -/
theorem inRange_one (w : IVec S400000 32) (hw : ∀ e, (w e).toNat < 50000) (j : S400000.Idx) : inRange w j = 1#1 := by
  unfold inRange
  refine EdgeScore.Words.reduce_andi_ones _ _ _ _ rfl (fun i => ?_) j
  show IntOp.andi (IntOp.cmpi .sge (idxCol w i) 0#32) (IntOp.cmpi .sle (idxCol w i) 49999#32) = 1#1
  rw [EdgeScore.Words.ge_zero _ (idxCol_lt w hw i), EdgeScore.Words.le_last _ (idxCol_lt w hw i)]
  rfl

/-- So the guarded gather is the gather. -/
theorem takenOrFill_eq (x0 : FVec F S50000x128 .f32) (w : IVec S400000 32) (hw : ∀ e, (w e).toNat < 50000) :
    takenOrFill x0 w = taken x0 w := by
  funext i
  unfold takenOrFill
  show Scalar.select (inRange w _) (taken x0 w i) _ = taken x0 w i
  rw [inRange_one w hw]
  exact ValueIdx.select_one _ _

/-- Under an edge table whose entries all have values below 50000, the region finds the plain gathers. -/
theorem V_src_of_range (c : Dev nD) (h : ∀ i, (m ((c : Thread nD τ).loc main_arg1) i).toNat < 50000) :
    V m c main_v4 = taken (m ((c : Thread nD τ).loc main_arg0)) (srcOf (m ((c : Thread nD τ).loc main_arg1))) := by
  rw [V_src]
  exact takenOrFill_eq _ _ fun e => by obtain ⟨k, ek⟩ := srcOf_entry (m ((c : Thread nD τ).loc main_arg1)) e; rw [ek]; exact h k

theorem V_dst_of_range (c : Dev nD) (h : ∀ i, (m ((c : Thread nD τ).loc main_arg1) i).toNat < 50000) :
    V m c main_v5 = taken (m ((c : Thread nD τ).loc main_arg0)) (dstOf (m ((c : Thread nD τ).loc main_arg1))) := by
  rw [V_dst]
  exact takenOrFill_eq _ _ fun e => by obtain ⟨k, ek⟩ := dstOf_entry (m ((c : Thread nD τ).loc main_arg1)) e; rw [ek]; exact h k

/-! ## The matrix blocks, entry by entry -/

/-- A 128-row slice of the 384-row matrix starting at row `o` is the specification's row block. -/
theorem slice_eq_rowBlock (X : FVec Ideal S384x128 .f32) (o : ℕ) (ho : o + 128 ≤ 384) (hs : S384x128.Slices ![o, 0] S128x128) :
    extractStridedSlice S128x128 ![o, 0] X hs = EdgeScore.rowBlock X o ho := by
  funext i
  unfold EdgeScore.rowBlock
  refine extractStridedSlice_apply ![o, 0] X hs i _ (fun a => ?_)
  match a with
  | ⟨0, _⟩ => rfl
  | ⟨1, _⟩ => show (i 1).val = 0 + (i 1).val; omega

end Cert.KernelIdeal.Inputs

end
-- ==== Proof.PreDecode.lean ====
/-
  The precondition, read back for the edge table. The predicate is a conjunction, one `all` per input; its last
  conjunct says that every entry of the edge table is at least 0 and below 50000 (as a signed number). Where the
  predicate is true, that conjunct is true, so the `and` over all entries is 1, so each entry's two comparisons are 1,
  and such a word has a value below 50000. The conjuncts about the float inputs are not needed: the two programs
  differ only in the order of additions.
-/
import proofs.«418558_j52072183497375_1_alg».proof.Pre_finite_inputs
import proofs.«418558_j52072183497375_1_alg».proof.Proof.Gen.Pre_finite_inputs
import proofs.«418558_j52072183497375_1_alg».proof.Proof.Words
import Idealize.ShloMosaic.Lib.ValueIdx

noncomputable section

namespace Cert.Pre_finite_inputs.Decode

open Cert.Pre_finite_inputs Cert.Pre_finite_inputs.Gen Idealize.ShloMosaic

variable {F : FTy → Type} [FloatOps F]

/-- A rank-0 array has one index. -/
instance : Subsingleton S_.Idx := ⟨fun a b => funext fun d => d.elim0⟩

/-- Where the precondition holds, every entry of the edge table has a value below 50000. -/
theorem index_range (x0 : FVec F S50000x128 .f32) (x1 : IVec S2x400000 32) (x2 : FVec F S400000x128 .f32) (x3 : FVec F S384x128 .f32)
    (x4 x5 x6 : FVec F S128 .f32) (x7 : FVec F S128x128 .f32) (x8 x9 x10 : FVec F S128 .f32) (x11 : FVec F S128x128 .f32)
    (x12 x13 x14 : FVec F S128 .f32) (x15 : FVec F S128x1 .f32) (x16 : FVec F S1 .f32)
    (h : fn (F := F) x0 x1 x2 x3 x4 x5 x6 x7 x8 x9 x10 x11 x12 x13 x14 x15 x16 = fun _ => 1#1) (i : S2x400000.Idx) :
    (x1 i).toNat < 50000 := by
  have e := congrFun h ValueIdx.ix0
  dsimp only [fn, fn_part1, fn_part2, fn_part3, fn_part4, fn_part5] at e
  have e84 := (IntOp.andi_eq_one.1 e).2
  have e83 := Host.reduce_andi_all _ _ _ _ _ e84 i
  obtain ⟨h0, h1⟩ := IntOp.andi_eq_one.1 e83
  exact EdgeScore.Words.toNat_lt (x1 i) h0 h1

end Cert.Pre_finite_inputs.Decode

end
-- ==== Proof.RefStages.lean ====
/-
  The reference program's host operations, grouped into the stages of the computation. Each stage is the plain
  composition of the operations the program applies, in the program's order, as a function of the stage's inputs:
  the node-index column of one endpoint (with the wrap-around rule for negative positions), the gathered node rows,
  the first dense layer on the concatenated rows, the normalise-and-clip stage, a dense layer, and the output layer.
  `scores` composes them as the program does. Naming the stages keeps every later statement small: a stage mentions
  the previous stage's array by name instead of repeating its whole expression.
-/
import proofs.«418558_j52072183497375_1_alg».proof.ReferenceIdeal

noncomputable section

namespace Cert.ReferenceIdeal.Stages

open Cert.ReferenceIdeal Cert.ReferenceIdeal.Facts₀ Cert.ReferenceIdeal.Facts Idealize.ShloMosaic Idealize.ShloMosaic.TcCoe

variable [Cert.ReferenceIdeal.Facts]
variable {F : FTy → Type} [FloatOps F]

/-- Row 0 of the edge table: the source endpoints. -/
def srcOf (x1 : IVec S2x400000 32) : IVec S400000 32 :=
  shapeCast S400000 (extractStridedSlice S1x400000 ![0, 0] x1 slices_S2x400000_S1x400000_0_0) shapeCasts_S1x400000_S400000

/-- Row 1 of the edge table: the destination endpoints. -/
def dstOf (x1 : IVec S2x400000 32) : IVec S400000 32 :=
  shapeCast S400000 (extractStridedSlice S1x400000 ![1, 0] x1 slices_S2x400000_S1x400000_1_0) shapeCasts_S1x400000_S400000

/-- Negative positions count from the end: add the table's length to them; then lay the indices out as a column. -/
def idxCol (w : IVec S400000 32) : IVec S400000x1 32 :=
  broadcastInDim S400000x1 ![0] bcast_S400000_S400000x1_0
    (select (cmpi .slt w (broadcastInDim S400000 ![] bcast_S_S400000 (constantI S_ 32 0#32)))
      (addi w (broadcastInDim S400000 ![] bcast_S_S400000 (constantI S_ 32 50000#32))) w)

/-- The node rows at the given endpoints. -/
def taken (x0 : FVec F S50000x128 .f32) (w : IVec S400000 32) : FVec F S400000x128 .f32 :=
  Host.gather gather_S50000x128_S400000x1_S400000x128_1_0_n_n_0_1_1128 x0 (idxCol w)

/-- A vector of 128 per-coordinate numbers laid along every row. -/
def alongRows (v : FVec F S128 .f32) : FVec F S400000x128 .f32 :=
  broadcastInDim S400000x128 ![0, 1] bcast_S1x128_S400000x128_0_1 (broadcastInDim S1x128 ![1] bcast_S128_S1x128_1 v)

/-- The first dense layer: the three row families side by side, times the 384 x 128 matrix, plus the bias. -/
def dense0 (xs xd e : FVec F S400000x128 .f32) (W0 : FVec F S384x128 .f32) (b0 : FVec F S128 .f32) : FVec F S400000x128 .f32 :=
  addf (Host.dotGeneral dot_S400000x384_S384x128_S400000x128_1_0_0_1_n_n none
      (concatenate S400000x384 1 [⟨S400000x128, xs⟩, ⟨S400000x128, xd⟩, ⟨S400000x128, e⟩] concatenates_S400000x128_S400000x128_S400000x128_S400000x384_d1) W0)
    (alongRows b0)

/-- The mean of every row, as a column. -/
def rowMean (H : FVec F S400000x128 .f32) : FVec F S400000x1 .f32 :=
  Host.divf (broadcastInDim S400000x1 ![0] bcast_S400000_S400000x1_0
      (Host.reduceAdd H (constant S_ .f32 0x00000000#32) reducesTo_S400000x128_S400000_d1 h_S_))
    (broadcastInDim S400000x1 ![] bcast_S_S400000x1 (constant S_ .f32 0x43000000#32))

/-- Every entry less its row's mean. -/
def centred (H : FVec F S400000x128 .f32) : FVec F S400000x128 .f32 :=
  subf H (broadcastInDim S400000x128 ![0, 1] bcast_S400000x1_S400000x128_0_1 (rowMean H))

/-- Normalise each row, scale and shift per coordinate, clip below at zero. -/
def act (H : FVec F S400000x128 .f32) (g b : FVec F S128 .f32) : FVec F S400000x128 .f32 :=
  maximumf
    (addf
      (mulf
        (mulf (centred H)
          (broadcastInDim S400000x128 ![0, 1] bcast_S400000x1_S400000x128_0_1
            (Host.rsqrt (addf (rowMean (mulf (centred H) (centred H)))
              (broadcastInDim S400000x1 ![] bcast_S_S400000x1 (constant S_ .f32 0x3727C5AC#32))))))
        (alongRows g))
      (alongRows b))
    (broadcastInDim S400000x128 ![] bcast_S_S400000x128 (constant S_ .f32 0x00000000#32))

/-- A 128 to 128 dense layer on every row. -/
def dense (A : FVec F S400000x128 .f32) (W : FVec F S128x128 .f32) (b : FVec F S128 .f32) : FVec F S400000x128 .f32 :=
  addf (Host.dotGeneral dot_S400000x128_S128x128_S400000x128_1_0_0_1_n_n none A W) (alongRows b)

/-- The output layer: one inner product per row, plus the bias. -/
def out (A : FVec F S400000x128 .f32) (W3 : FVec F S128x1 .f32) (b3 : FVec F S1 .f32) : FVec F S400000x1 .f32 :=
  addf (Host.dotGeneral dot_S400000x128_S128x1_S400000x1_1_0_0_1_n_n none A W3)
    (broadcastInDim S400000x1 ![0, 1] bcast_S1x1_S400000x1_0_1 (broadcastInDim S1x1 ![1] bcast_S1_S1x1_1 b3))

/-- All stages composed: the scores of all edges as the reference computes them. -/
def scores (x0 : FVec F S50000x128 .f32) (x1 : IVec S2x400000 32) (x2 : FVec F S400000x128 .f32) (x3 : FVec F S384x128 .f32)
    (x4 x5 x6 : FVec F S128 .f32) (x7 : FVec F S128x128 .f32) (x8 x9 x10 : FVec F S128 .f32) (x11 : FVec F S128x128 .f32)
    (x12 x13 x14 : FVec F S128 .f32) (x15 : FVec F S128x1 .f32) (x16 : FVec F S1 .f32) : FVec F S400000x1 .f32 :=
  out (act (dense (act (dense (act (dense0 (taken x0 (srcOf x1)) (taken x0 (dstOf x1)) x2 x3 x4) x5 x6) x7 x8) x9 x10) x11 x12) x13 x14) x15 x16

end Cert.ReferenceIdeal.Stages

end
-- ==== Proof.Bridge.lean ====
/-
  The two sides meet. Under the precondition every entry of the edge table has a value below 50000, so the arrays the
  kernel's region finds are: the plain gathers of the node rows at the source and destination endpoints (the same
  gather, on the same wrapped index column, that the reference applies), the edge rows and the weights as launched,
  and the three 128-row blocks of the first layer's matrix. Hence the kernel's array of all scores, written with the
  matrix in blocks, is the specification's scores of the gathered rows and the launch weights, written with the matrix
  whole: the form the reference's stages were read in.
-/
import proofs.«418558_j52072183497375_1_alg».proof.Defs
import proofs.«418558_j52072183497375_1_alg».proof.Proof.KerInputs
import proofs.«418558_j52072183497375_1_alg».proof.Proof.PreDecode
import proofs.«418558_j52072183497375_1_alg».proof.Proof.RefStages
import proofs.«418558_j52072183497375_1_alg».proof.Proof.Spec
import proofs.«418558_j52072183497375_1_alg».proof.Proof.Gen.ReferenceIdeal
import proofs.«418558_j52072183497375_1_alg».proof.Proof.Gen.Pre_finite_inputs

noncomputable section

namespace Cert.Bridge

open Cert.KernelIdeal Cert.KernelIdeal.Gen Idealize.ShloMosaic Idealize.ShloMosaic.TcCoe Idealize.SL.Sem

/-- The kernel program's gather and the reference program's gather are one function: the same operations on the
    same shapes. -/
theorem taken_src (x0 : FVec Ideal Cert.KernelIdeal.S50000x128 .f32) (x1 : IVec Cert.KernelIdeal.S2x400000 32) :
    Cert.KernelIdeal.Inputs.taken (F := Ideal) x0 (Cert.KernelIdeal.Inputs.srcOf x1)
      = Cert.ReferenceIdeal.Stages.taken (F := Ideal) x0 (Cert.ReferenceIdeal.Stages.srcOf x1) := rfl

theorem taken_dst (x0 : FVec Ideal Cert.KernelIdeal.S50000x128 .f32) (x1 : IVec Cert.KernelIdeal.S2x400000 32) :
    Cert.KernelIdeal.Inputs.taken (F := Ideal) x0 (Cert.KernelIdeal.Inputs.dstOf x1)
      = Cert.ReferenceIdeal.Stages.taken (F := Ideal) x0 (Cert.ReferenceIdeal.Stages.dstOf x1) := rfl

variable (m : (ℓ : Loc nD τ sig) → Buf (Elt Ideal) ℓ)

/-- Where the precondition holds, every entry of the launched edge table has a value below 50000. -/
theorem edge_range (hpre : Cert.Pre_KernelIdeal m) (c : Dev nD) (i : S2x400000.Idx) :
    (m ((c : Thread nD τ).loc main_arg1) i).toNat < 50000 :=
  Cert.Pre_finite_inputs.Decode.index_range (F := Ideal) _ _ _ _ _ _ _ _ _ _ _ _ _ _ _ _ _ (hpre c) i

/-- The kernel's array of all scores, of the arrays the region finds, is the specification's scores of the gathered
    rows and the launch weights. -/
theorem scores_found (hpre : Cert.Pre_KernelIdeal m) (c : Dev nD) :
    EdgeScore.scoresOfBlocks (V m c main_v4) (V m c main_v5) (V m c main_arg2) (V m c main_v6) (V m c main_v7) (V m c main_v8) (V m c main_arg4) (V m c main_arg5) (V m c main_arg6) (V m c main_arg7) (V m c main_arg8) (V m c main_arg9) (V m c main_arg10) (V m c main_arg11) (V m c main_arg12) (V m c main_arg13) (V m c main_arg14) (V m c main_arg15) (V m c main_arg16)
      = EdgeScore.scores
          (Cert.ReferenceIdeal.Stages.taken (F := Ideal) (m ((c : Thread nD τ).loc main_arg0)) (Cert.ReferenceIdeal.Stages.srcOf (m ((c : Thread nD τ).loc main_arg1))))
          (Cert.ReferenceIdeal.Stages.taken (F := Ideal) (m ((c : Thread nD τ).loc main_arg0)) (Cert.ReferenceIdeal.Stages.dstOf (m ((c : Thread nD τ).loc main_arg1))))
          (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  have hr := edge_range m hpre c
  rw [Inputs.V_src_of_range m c hr, Inputs.V_dst_of_range m c hr, Inputs.V_block0 m c, Inputs.V_block1 m c, Inputs.V_block2 m c,
    V_main_arg2 m c, V_main_arg4 m c, V_main_arg5 m c, V_main_arg6 m c, V_main_arg7 m c, V_main_arg8 m c, V_main_arg9 m c,
    V_main_arg10 m c, V_main_arg11 m c, V_main_arg12 m c, V_main_arg13 m c, V_main_arg14 m c, V_main_arg15 m c, V_main_arg16 m c,
    taken_src, taken_dst]
  unfold EdgeScore.scores
  rw [Inputs.slice_eq_rowBlock _ 0 (by omega), Inputs.slice_eq_rowBlock _ 128 (by omega), Inputs.slice_eq_rowBlock _ 256 (by omega)]

end Cert.Bridge

end
-- ==== Proof.RefValue.lean ====
/-
  The reference program's run, read stage by stage: every weakly fair execution terminates, the result buffer holds
  the stages' composition (`Stages.scores`) of the launch contents of the arguments, and the arguments are unchanged.
  The run itself is the fold of the program's 135 host operations over the launch contents; the fold is read one
  stretch of operations at a time, each stretch one stage, so that no statement repeats an earlier stage's expression.
-/
import proofs.«418558_j52072183497375_1_alg».proof.Proof.RefRun
import proofs.«418558_j52072183497375_1_alg».proof.Proof.RefStages

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The fold over two lines in a row is the fold over the second, started from the fold over the first. -/
theorem after_app : ∀ (l₁ l₂ : List (HloOp τ sig (Elt F))) (V : Valuation τ sig (Elt F)),
    after (l₁ ++ l₂) V = after l₂ (after l₁ V)
  | [], _, _ => rfl
  | _ :: l₁, l₂, V => by rw [List.cons_append, after_cons, after_cons, after_app l₁ l₂]

/-! ## The eight stretches of the operation list

Operations 1 to 22 make the two index columns and gather the node rows at them; 23 to 27 are the first dense layer;
28 to 59, 64 to 95 and 100 to 131 are the three normalise-and-clip stages (each ends with the three operations of the
clipping function); 60 to 63 and 96 to 99 are the two inner dense layers; 132 to 135 are the output layer. -/

def s1 : List (HloOp τ sig (Elt F)) := RunP.ops.take 22
def s2 : List (HloOp τ sig (Elt F)) := (RunP.ops.drop 22).take 5
def s3 : List (HloOp τ sig (Elt F)) := (RunP.ops.drop 27).take 32
def s4 : List (HloOp τ sig (Elt F)) := (RunP.ops.drop 59).take 4
def s5 : List (HloOp τ sig (Elt F)) := (RunP.ops.drop 63).take 32
def s6 : List (HloOp τ sig (Elt F)) := (RunP.ops.drop 95).take 4
def s7 : List (HloOp τ sig (Elt F)) := (RunP.ops.drop 99).take 32
def s8 : List (HloOp τ sig (Elt F)) := RunP.ops.drop 131

/-- The list is its stretches in a row (both sides are the same literal list once take and drop have run). -/
theorem ops_split :
    (RunP.ops : List (HloOp τ sig (Elt F))) = s1 ++ (s2 ++ (s3 ++ (s4 ++ (s5 ++ (s6 ++ (s7 ++ s8)))))) := rfl

/-! ## What no operation writes

Every operation writes its own result buffer and nothing else, and no argument is among the result buffers: an
argument keeps its contents through any part of the list. -/

/-- The result buffers of the 135 operations: the 110 numbered values, the four integer constants, the fifteen float
    constants of the main function, and the constant and its broadcast in each of the three calls. -/
abbrev written : List (Ref sig .tc) :=
  [main_v0, main_v1, main_v2, main_v3, main_v4, main_v5, main_v6, main_v7, main_v8, main_v9,
   main_v10, main_v11, main_v12, main_v13, main_v14, main_v15, main_v16, main_v17, main_v18, main_v19,
   main_v20, main_v21, main_v22, main_v23, main_v24, main_v25, main_v26, main_v27, main_v28, main_v29,
   main_v30, main_v31, main_v32, main_v33, main_v34, main_v35, main_v36, main_v37, main_v38, main_v39,
   main_v40, main_v41, main_v42, main_v43, main_v44, main_v45, main_v46, main_v47, main_v48, main_v49,
   main_v50, main_v51, main_v52, main_v53, main_v54, main_v55, main_v56, main_v57, main_v58, main_v59,
   main_v60, main_v61, main_v62, main_v63, main_v64, main_v65, main_v66, main_v67, main_v68, main_v69,
   main_v70, main_v71, main_v72, main_v73, main_v74, main_v75, main_v76, main_v77, main_v78, main_v79,
   main_v80, main_v81, main_v82, main_v83, main_v84, main_v85, main_v86, main_v87, main_v88, main_v89,
   main_v90, main_v91, main_v92, main_v93, main_v94, main_v95, main_v96, main_v97, main_v98, main_v99,
   main_v100, main_v101, main_v102, main_v103, main_v104, main_v105, main_v106, main_v107, main_v108, main_v109,
   main_c, main_c_0, main_c_1, main_c_2,
   main_cst, main_cst_3, main_cst_4, main_cst_5, main_cst_6, main_cst_7, main_cst_8, main_cst_9, main_cst_10,
   main_cst_11, main_cst_12, main_cst_13, main_cst_14, main_cst_15, main_cst_16,
   main_call0_cst, main_call0_v0, main_call1_cst, main_call1_v0, main_call2_cst, main_call2_v0]

set_option maxHeartbeats 4000000 in
set_option maxRecDepth 8192 in
/-- Each operation's written set is the singleton of its result buffer, and that buffer is in the list above. -/
theorem ops_writes : (RunP.ops : List (HloOp τ sig (Elt F))).Forall fun op =>
    op.writes ⊆ (written.map (Proc.devRef (τ := τ) .tc)).toFinset := by
  simp only [List.Forall, nullary_writes, unary_writes, binary_writes, ternary_writes, reshape_writes, nary_writes,
    Finset.singleton_subset_iff, List.mem_toFinset]
  repeat' constructor
  all_goals exact List.mem_map_of_mem (by decide)

/-- A reference that is no operation's result keeps its contents through any line made of the list's operations. -/
theorem kept {r : Ref sig .tc} (hr : r ∉ written) (l : List (HloOp τ sig (Elt F))) (hl : ∀ op ∈ l, op ∈ RunP.ops)
    (V : Valuation τ sig (Elt F)) : after l V (Proc.devRef .tc r) = V (Proc.devRef .tc r) :=
  after_of_forall_not_mem l V fun op hop hb => by
    obtain ⟨y, hy, he⟩ :=
      List.mem_map.mp (List.mem_toFinset.mp ((List.forall_iff_forall_mem.mp ops_writes) op (hl op hop) hb))
    exact hr (Proc.devRef_injective _ he ▸ hy)

theorem s1_keep {r : Ref sig .tc} (hr : r ∉ written) (V : Valuation τ sig (Elt F)) :
    after s1 V (Proc.devRef .tc r) = V (Proc.devRef .tc r) :=
  kept hr s1 (fun _ h => List.mem_of_mem_take h) V
theorem s2_keep {r : Ref sig .tc} (hr : r ∉ written) (V : Valuation τ sig (Elt F)) :
    after s2 V (Proc.devRef .tc r) = V (Proc.devRef .tc r) :=
  kept hr s2 (fun _ h => List.mem_of_mem_drop (List.mem_of_mem_take h)) V
theorem s3_keep {r : Ref sig .tc} (hr : r ∉ written) (V : Valuation τ sig (Elt F)) :
    after s3 V (Proc.devRef .tc r) = V (Proc.devRef .tc r) :=
  kept hr s3 (fun _ h => List.mem_of_mem_drop (List.mem_of_mem_take h)) V
theorem s4_keep {r : Ref sig .tc} (hr : r ∉ written) (V : Valuation τ sig (Elt F)) :
    after s4 V (Proc.devRef .tc r) = V (Proc.devRef .tc r) :=
  kept hr s4 (fun _ h => List.mem_of_mem_drop (List.mem_of_mem_take h)) V
theorem s5_keep {r : Ref sig .tc} (hr : r ∉ written) (V : Valuation τ sig (Elt F)) :
    after s5 V (Proc.devRef .tc r) = V (Proc.devRef .tc r) :=
  kept hr s5 (fun _ h => List.mem_of_mem_drop (List.mem_of_mem_take h)) V
theorem s6_keep {r : Ref sig .tc} (hr : r ∉ written) (V : Valuation τ sig (Elt F)) :
    after s6 V (Proc.devRef .tc r) = V (Proc.devRef .tc r) :=
  kept hr s6 (fun _ h => List.mem_of_mem_drop (List.mem_of_mem_take h)) V
theorem s7_keep {r : Ref sig .tc} (hr : r ∉ written) (V : Valuation τ sig (Elt F)) :
    after s7 V (Proc.devRef .tc r) = V (Proc.devRef .tc r) :=
  kept hr s7 (fun _ h => List.mem_of_mem_drop (List.mem_of_mem_take h)) V

/-- Kept through the first two stretches, and so on through the first seven. -/
theorem keep2 {r : Ref sig .tc} (hr : r ∉ written) (V : Valuation τ sig (Elt F)) :
    after s2 (after s1 V) (Proc.devRef .tc r) = V (Proc.devRef .tc r) :=
  (s2_keep hr _).trans (s1_keep hr V)
theorem keep3 {r : Ref sig .tc} (hr : r ∉ written) (V : Valuation τ sig (Elt F)) :
    after s3 (after s2 (after s1 V)) (Proc.devRef .tc r) = V (Proc.devRef .tc r) :=
  (s3_keep hr _).trans (keep2 hr V)
theorem keep4 {r : Ref sig .tc} (hr : r ∉ written) (V : Valuation τ sig (Elt F)) :
    after s4 (after s3 (after s2 (after s1 V))) (Proc.devRef .tc r) = V (Proc.devRef .tc r) :=
  (s4_keep hr _).trans (keep3 hr V)
theorem keep5 {r : Ref sig .tc} (hr : r ∉ written) (V : Valuation τ sig (Elt F)) :
    after s5 (after s4 (after s3 (after s2 (after s1 V)))) (Proc.devRef .tc r) = V (Proc.devRef .tc r) :=
  (s5_keep hr _).trans (keep4 hr V)
theorem keep6 {r : Ref sig .tc} (hr : r ∉ written) (V : Valuation τ sig (Elt F)) :
    after s6 (after s5 (after s4 (after s3 (after s2 (after s1 V))))) (Proc.devRef .tc r) = V (Proc.devRef .tc r) :=
  (s6_keep hr _).trans (keep5 hr V)
theorem keep7 {r : Ref sig .tc} (hr : r ∉ written) (V : Valuation τ sig (Elt F)) :
    after s7 (after s6 (after s5 (after s4 (after s3 (after s2 (after s1 V)))))) (Proc.devRef .tc r)
      = V (Proc.devRef .tc r) :=
  (s7_keep hr _).trans (keep6 hr V)

/-! ## Each stretch computes its stage, from any contents

The contents before the stretch are a variable: the stage's function is applied to what the stretch's input buffers
hold, whatever that is. Unfolding take and drop leaves the stretch's operations as a literal list; one pass then
reads every operation's result, and the term left is the stage's definition unfolded. -/

/-- Stretch 1: the rows of the node table at the source endpoints. -/
theorem s1_v10 (W : Valuation τ sig (Elt F)) :
    after s1 W (Proc.devRef .tc main_v10)
      = Stages.taken (W (Proc.devRef .tc main_arg0)) (Stages.srcOf (W (Proc.devRef .tc main_arg1))) := by
  simp only [s1, RunP.ops, List.take_succ_cons, List.take_zero]
  after_results_simp <;> rfl

/-- Stretch 1: the rows of the node table at the destination endpoints. -/
theorem s1_v17 (W : Valuation τ sig (Elt F)) :
    after s1 W (Proc.devRef .tc main_v17)
      = Stages.taken (W (Proc.devRef .tc main_arg0)) (Stages.dstOf (W (Proc.devRef .tc main_arg1))) := by
  simp only [s1, RunP.ops, List.take_succ_cons, List.take_zero]
  after_results_simp <;> rfl

/-- Stretch 2: the first dense layer on the three row families side by side. The concatenation takes its operands
    as a family; the rewriting form of the result rules reads them inside it. -/
theorem s2_v22 (W : Valuation τ sig (Elt F)) :
    after s2 W (Proc.devRef .tc main_v22)
      = Stages.dense0 (W (Proc.devRef .tc main_v10)) (W (Proc.devRef .tc main_v17)) (W (Proc.devRef .tc main_arg2))
          (W (Proc.devRef .tc main_arg3)) (W (Proc.devRef .tc main_arg4)) := by
  simp only [s2, RunP.ops, List.drop_succ_cons, List.drop_zero, List.take_succ_cons, List.take_zero]
  after_results
  rfl

set_option maxHeartbeats 1000000 in
/-- Stretch 3: normalise and clip the first dense layer's array. -/
theorem s3_v47 (W : Valuation τ sig (Elt F)) :
    after s3 W (Proc.devRef .tc main_v47)
      = Stages.act (W (Proc.devRef .tc main_v22)) (W (Proc.devRef .tc main_arg5)) (W (Proc.devRef .tc main_arg6)) := by
  simp only [s3, RunP.ops, List.drop_succ_cons, List.drop_zero, List.take_succ_cons, List.take_zero]
  after_results_simp <;> rfl

/-- Stretch 4: the second dense layer. -/
theorem s4_v51 (W : Valuation τ sig (Elt F)) :
    after s4 W (Proc.devRef .tc main_v51)
      = Stages.dense (W (Proc.devRef .tc main_v47)) (W (Proc.devRef .tc main_arg7)) (W (Proc.devRef .tc main_arg8)) := by
  simp only [s4, RunP.ops, List.drop_succ_cons, List.drop_zero, List.take_succ_cons, List.take_zero]
  after_results_simp <;> rfl

set_option maxHeartbeats 1000000 in
/-- Stretch 5: normalise and clip the second dense layer's array. -/
theorem s5_v76 (W : Valuation τ sig (Elt F)) :
    after s5 W (Proc.devRef .tc main_v76)
      = Stages.act (W (Proc.devRef .tc main_v51)) (W (Proc.devRef .tc main_arg9)) (W (Proc.devRef .tc main_arg10)) := by
  simp only [s5, RunP.ops, List.drop_succ_cons, List.drop_zero, List.take_succ_cons, List.take_zero]
  after_results_simp <;> rfl

/-- Stretch 6: the third dense layer. -/
theorem s6_v80 (W : Valuation τ sig (Elt F)) :
    after s6 W (Proc.devRef .tc main_v80)
      = Stages.dense (W (Proc.devRef .tc main_v76)) (W (Proc.devRef .tc main_arg11)) (W (Proc.devRef .tc main_arg12)) := by
  simp only [s6, RunP.ops, List.drop_succ_cons, List.drop_zero, List.take_succ_cons, List.take_zero]
  after_results_simp <;> rfl

set_option maxHeartbeats 1000000 in
/-- Stretch 7: normalise and clip the third dense layer's array. -/
theorem s7_v105 (W : Valuation τ sig (Elt F)) :
    after s7 W (Proc.devRef .tc main_v105)
      = Stages.act (W (Proc.devRef .tc main_v80)) (W (Proc.devRef .tc main_arg13)) (W (Proc.devRef .tc main_arg14)) := by
  simp only [s7, RunP.ops, List.drop_succ_cons, List.drop_zero, List.take_succ_cons, List.take_zero]
  after_results_simp <;> rfl

/-- Stretch 8: the output layer. -/
theorem s8_v109 (W : Valuation τ sig (Elt F)) :
    after s8 W (Proc.devRef .tc main_v109)
      = Stages.out (W (Proc.devRef .tc main_v105)) (W (Proc.devRef .tc main_arg15)) (W (Proc.devRef .tc main_arg16)) := by
  simp only [s8, RunP.ops, List.drop_succ_cons, List.drop_zero]
  after_results_simp <;> rfl

/-! ## The stretches in a row

The array each stage leaves, as a function of the contents V the arguments had at the start. Each names the one
before it once, so the expressions grow by one stage a step. -/

/-- After the first dense layer. -/
def h0 (V : Valuation τ sig (Elt F)) : FVec F S400000x128 .f32 :=
  Stages.dense0
    (Stages.taken (V (Proc.devRef .tc main_arg0)) (Stages.srcOf (V (Proc.devRef .tc main_arg1))))
    (Stages.taken (V (Proc.devRef .tc main_arg0)) (Stages.dstOf (V (Proc.devRef .tc main_arg1))))
    (V (Proc.devRef .tc main_arg2)) (V (Proc.devRef .tc main_arg3)) (V (Proc.devRef .tc main_arg4))
/-- After the first normalise-and-clip stage. -/
def a1 (V : Valuation τ sig (Elt F)) : FVec F S400000x128 .f32 :=
  Stages.act (h0 V) (V (Proc.devRef .tc main_arg5)) (V (Proc.devRef .tc main_arg6))
/-- After the second dense layer. -/
def h1 (V : Valuation τ sig (Elt F)) : FVec F S400000x128 .f32 :=
  Stages.dense (a1 V) (V (Proc.devRef .tc main_arg7)) (V (Proc.devRef .tc main_arg8))
/-- After the second normalise-and-clip stage. -/
def a2 (V : Valuation τ sig (Elt F)) : FVec F S400000x128 .f32 :=
  Stages.act (h1 V) (V (Proc.devRef .tc main_arg9)) (V (Proc.devRef .tc main_arg10))
/-- After the third dense layer. -/
def h2 (V : Valuation τ sig (Elt F)) : FVec F S400000x128 .f32 :=
  Stages.dense (a2 V) (V (Proc.devRef .tc main_arg11)) (V (Proc.devRef .tc main_arg12))
/-- After the third normalise-and-clip stage. -/
def a3 (V : Valuation τ sig (Elt F)) : FVec F S400000x128 .f32 :=
  Stages.act (h2 V) (V (Proc.devRef .tc main_arg13)) (V (Proc.devRef .tc main_arg14))

theorem chain2 (V : Valuation τ sig (Elt F)) :
    after s2 (after s1 V) (Proc.devRef .tc main_v22) = h0 V := by
  rw [s2_v22, s1_v10, s1_v17, s1_keep (r := main_arg2) (by decide), s1_keep (r := main_arg3) (by decide),
    s1_keep (r := main_arg4) (by decide)]
  rfl

theorem chain3 (V : Valuation τ sig (Elt F)) :
    after s3 (after s2 (after s1 V)) (Proc.devRef .tc main_v47) = a1 V := by
  rw [s3_v47, chain2, keep2 (r := main_arg5) (by decide), keep2 (r := main_arg6) (by decide)]
  rfl

theorem chain4 (V : Valuation τ sig (Elt F)) :
    after s4 (after s3 (after s2 (after s1 V))) (Proc.devRef .tc main_v51) = h1 V := by
  rw [s4_v51, chain3, keep3 (r := main_arg7) (by decide), keep3 (r := main_arg8) (by decide)]
  rfl

theorem chain5 (V : Valuation τ sig (Elt F)) :
    after s5 (after s4 (after s3 (after s2 (after s1 V)))) (Proc.devRef .tc main_v76) = a2 V := by
  rw [s5_v76, chain4, keep4 (r := main_arg9) (by decide), keep4 (r := main_arg10) (by decide)]
  rfl

theorem chain6 (V : Valuation τ sig (Elt F)) :
    after s6 (after s5 (after s4 (after s3 (after s2 (after s1 V))))) (Proc.devRef .tc main_v80) = h2 V := by
  rw [s6_v80, chain5, keep5 (r := main_arg11) (by decide), keep5 (r := main_arg12) (by decide)]
  rfl

theorem chain7 (V : Valuation τ sig (Elt F)) :
    after s7 (after s6 (after s5 (after s4 (after s3 (after s2 (after s1 V)))))) (Proc.devRef .tc main_v105) = a3 V := by
  rw [s7_v105, chain6, keep6 (r := main_arg13) (by decide), keep6 (r := main_arg14) (by decide)]
  rfl

/-- The result buffer after the whole list: the stages' composition of the arguments' contents at the start. The
    closing step only unfolds the names of this section and the definition of the composed stages. -/
theorem ops_v109 (V : Valuation τ sig (Elt F)) :
    after RunP.ops V (Proc.devRef .tc main_v109)
      = Stages.scores (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) (V (Proc.devRef .tc main_arg7)) (V (Proc.devRef .tc main_arg8))
          (V (Proc.devRef .tc main_arg9)) (V (Proc.devRef .tc main_arg10)) (V (Proc.devRef .tc main_arg11))
          (V (Proc.devRef .tc main_arg12)) (V (Proc.devRef .tc main_arg13)) (V (Proc.devRef .tc main_arg14))
          (V (Proc.devRef .tc main_arg15)) (V (Proc.devRef .tc main_arg16)) := by
  rw [ops_split, after_app, after_app, after_app, after_app, after_app, after_app, after_app, s8_v109, chain7,
    keep7 (r := main_arg15) (by decide), keep7 (r := main_arg16) (by decide)]
  rfl

/-- An argument's buffer after the whole list: what it held at the start. -/
theorem ops_arg {r : Ref sig .tc} (hr : r ∉ written) (V : Valuation τ sig (Elt F)) :
    after RunP.ops V (Proc.devRef .tc r) = V (Proc.devRef .tc r) :=
  kept hr RunP.ops (fun _ h => h) V

/-- The run of the reference, with its result named by stages. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v109) = Stages.scores (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) := by
  exact (θ_run defs _ _).mono (fun _ h c =>
    ⟨(h c main_v109).trans (ops_v109 _),
     (h c main_arg0).trans (ops_arg (by decide) _),
     (h c main_arg1).trans (ops_arg (by decide) _),
     (h c main_arg2).trans (ops_arg (by decide) _),
     (h c main_arg3).trans (ops_arg (by decide) _),
     (h c main_arg4).trans (ops_arg (by decide) _),
     (h c main_arg5).trans (ops_arg (by decide) _),
     (h c main_arg6).trans (ops_arg (by decide) _),
     (h c main_arg7).trans (ops_arg (by decide) _),
     (h c main_arg8).trans (ops_arg (by decide) _),
     (h c main_arg9).trans (ops_arg (by decide) _),
     (h c main_arg10).trans (ops_arg (by decide) _),
     (h c main_arg11).trans (ops_arg (by decide) _),
     (h c main_arg12).trans (ops_arg (by decide) _),
     (h c main_arg13).trans (ops_arg (by decide) _),
     (h c main_arg14).trans (ops_arg (by decide) _),
     (h c main_arg15).trans (ops_arg (by decide) _),
     (h c main_arg16).trans (ops_arg (by decide) _)⟩) (RunP.run_after m ρ)

end Cert.ReferenceIdeal.RefValue

end
-- ==== Proof.RefRows.lean ====
/-
  The reference's stages read at an index: the composition of its host operations is, edge by edge, the score of the
  edge's gathered source row, gathered destination row and edge row. The one law used is that a sum over the 384
  concatenated coordinates is the sum of its three runs of 128; everything else is reading each operation at an index.
-/
import proofs.«418558_j52072183497375_1_alg».proof.Proof.RefStages
import proofs.«418558_j52072183497375_1_alg».proof.Proof.Spec
import proofs.«418558_j52072183497375_1_alg».proof.Proof.Gen.ReferenceIdeal
import Idealize.ShloMosaic.PureOps.Ideal.Laws
import Idealize.ShloMosaic.Lib.ValueIdx
import Idealize.ShloMosaic.Lib.Pipeline.Value

noncomputable section

namespace Cert.ReferenceIdeal.RefRows

open Cert.ReferenceIdeal Cert.ReferenceIdeal.Gen Idealize.ShloMosaic Idealize.ShloMosaic.TcCoe Idealize.ShloMosaic.ValueIdx

/-! ## Per-coordinate vectors, row sums and row means -/

/-- A per-coordinate vector laid along every row reads its coordinate. -/
theorem alongRows_apply (v : FVec Ideal S128 .f32) (r : Fin 400000) (j : Fin 128) :
    Stages.alongRows (F := Ideal) v (ix2 r j) = EdgeScore.coords v j := by
  unfold Stages.alongRows
  refine (broadcastInDim_apply _ _ _ (ix2 r j) (ix2 (⟨0, Nat.one_pos⟩ : Fin 1) j) (fun a => match a with
    | ⟨0, _⟩ => by show 0 = if (1 : Nat) = 1 then 0 else r.val; rw [if_pos rfl]
    | ⟨1, _⟩ => by show j.val = if (128 : Nat) = 1 then 0 else j.val; rw [if_neg (by decide)])).trans ?_
  exact broadcastInDim_apply _ _ v _ (ix1 j) (fun a => match a with
    | ⟨0, _⟩ => by show j.val = if (128 : Nat) = 1 then 0 else j.val; rw [if_neg (by decide)])

/-- The host's sum along a row, started at the zero word, is the sum of the row's 128 entries. -/
theorem rowSum_apply (H : FVec Ideal S400000x128 .f32) (h : S400000x128.ReducesTo [1] S400000) (hu : 0 < S_.numel) (r : Fin 400000) :
    Host.reduceAdd (F := Ideal) H (constant (F := Ideal) S_ .f32 0x00000000#32) h hu (ix1 r) = ∑ k : Fin 128, H (ix2 r k) := by
  simp only [Host.reduceAdd, Ideal.hostReduceAdd_def]
  rw [Ideal.hostReduceAdd_single h (by decide), constant_apply, Ideal.ofBits_zero_f32, zero_add]
  refine Finset.sum_congr rfl fun k _ => ?_
  exact congrArg H (funext fun a => Fin.ext (by match a with | ⟨0, _⟩ => rfl | ⟨1, _⟩ => rfl))

/-- The host's division and inverse square root act entry by entry. -/
theorem hostDivf_apply {s : Shape} (x y : FVec Ideal s .f32) (i : s.Idx) : Host.divf (F := Ideal) x y i = Ideal.div (x i) (y i) := rfl
theorem hostRsqrt_apply {s : Shape} (x : FVec Ideal s .f32) (i : s.Idx) : Host.rsqrt (F := Ideal) x i = Ideal.rsqrt (x i) := rfl

/-- The column of row means reads the mean of the row. -/
theorem rowMean_apply (H : FVec Ideal S400000x128 .f32) (r : Fin 400000) (o : Fin 1) :
    Stages.rowMean (F := Ideal) H (ix2 r o) = EdgeScore.mean (EdgeScore.rowOf H r) := by
  unfold Stages.rowMean EdgeScore.mean
  rw [hostDivf_apply]
  refine congrArg₂ Ideal.div ?_ ?_
  · refine (broadcastInDim_apply _ _ _ (ix2 r o) (ix1 r) (fun a => match a with
      | ⟨0, _⟩ => by show r.val = if (400000 : Nat) = 1 then 0 else r.val; rw [if_neg (by decide)])).trans ?_
    exact rowSum_apply H _ _ r
  · exact broadcastInDim_apply _ _ _ (ix2 r o) ix0 (fun a => a.elim0)

/-! ## The normalise-and-clip stage -/

/-- An entry less its row's mean. -/
theorem centred_apply (H : FVec Ideal S400000x128 .f32) (r : Fin 400000) (j : Fin 128) :
    Stages.centred (F := Ideal) H (ix2 r j) = EdgeScore.rowOf H r j - EdgeScore.mean (EdgeScore.rowOf H r) := by
  unfold Stages.centred
  rw [subf_apply]
  refine congrArg₂ (· - ·) rfl ?_
  refine (broadcastInDim_apply _ _ _ (ix2 r j) (ix2 r (⟨0, Nat.one_pos⟩ : Fin 1)) (fun a => match a with
    | ⟨0, _⟩ => by show r.val = if (400000 : Nat) = 1 then 0 else r.val; rw [if_neg (by decide)]
    | ⟨1, _⟩ => by show 0 = if (1 : Nat) = 1 then 0 else j.val; rw [if_pos rfl])).trans ?_
  exact rowMean_apply H r _

/-- The row of squared centred entries is the row's squared deviations. -/
theorem rowOf_centred_sq (H : FVec Ideal S400000x128 .f32) (r : Fin 400000) :
    EdgeScore.rowOf (mulf (Stages.centred (F := Ideal) H) (Stages.centred (F := Ideal) H)) r = EdgeScore.sqdev (EdgeScore.rowOf H r) := by
  funext k
  unfold EdgeScore.rowOf EdgeScore.sqdev
  rw [mulf_apply, centred_apply]
  rfl

/-- The stage at an index: the row, normalised, scaled, shifted and clipped. -/
theorem act_apply (H : FVec Ideal S400000x128 .f32) (g b : FVec Ideal S128 .f32) (r : Fin 400000) (j : Fin 128) :
    Stages.act (F := Ideal) H g b (ix2 r j) = EdgeScore.act (EdgeScore.rowOf H r) (EdgeScore.coords g) (EdgeScore.coords b) j := by
  unfold Stages.act EdgeScore.act EdgeScore.norm
  rw [maximumf_apply, addf_apply, mulf_apply, mulf_apply, alongRows_apply, alongRows_apply, centred_apply]
  refine congrArg₂ max (congrArg₂ (· + ·) (congrArg₂ (· * ·) (congrArg₂ (· * ·) rfl ?_) rfl) rfl) ?_
  · refine (broadcastInDim_apply _ _ _ (ix2 r j) (ix2 r (⟨0, Nat.one_pos⟩ : Fin 1)) (fun a => match a with
      | ⟨0, _⟩ => by show r.val = if (400000 : Nat) = 1 then 0 else r.val; rw [if_neg (by decide)]
      | ⟨1, _⟩ => by show 0 = if (1 : Nat) = 1 then 0 else j.val; rw [if_pos rfl])).trans ?_
    rw [hostRsqrt_apply, addf_apply, rowMean_apply, rowOf_centred_sq]
    refine congrArg Ideal.rsqrt (congrArg₂ (· + ·) rfl ?_)
    exact broadcastInDim_apply _ _ _ (ix2 r _) ix0 (fun a => a.elim0)
  · exact broadcastInDim_apply _ _ _ (ix2 r j) ix0 (fun a => a.elim0)

/-- The stage row by row. -/
theorem rowOf_act (H : FVec Ideal S400000x128 .f32) (g b : FVec Ideal S128 .f32) (r : Fin 400000) :
    EdgeScore.rowOf (Stages.act (F := Ideal) H g b) r = EdgeScore.act (EdgeScore.rowOf H r) (EdgeScore.coords g) (EdgeScore.coords b) :=
  funext fun j => act_apply H g b r j

/-! ## The three matrix products at an index -/

theorem lhs_dot384_0 (i : S400000x128.Idx) (q : dot_S400000x384_S384x128_S400000x128_1_0_0_1_n_n.contr.Idx) :
    (dot_S400000x384_S384x128_S400000x128_1_0_0_1_n_n.lhsIdx i q 0).val = (i 0).val := by
  unfold DotDims.lhsIdx
  rw [dif_neg (show ¬(0 : Fin S400000x384.rank) ∈ dot_S400000x384_S384x128_S400000x128_1_0_0_1_n_n.lhsBatch by decide), dif_pos (show (0 : Fin S400000x384.rank) ∈ dot_S400000x384_S384x128_S400000x128_1_0_0_1_n_n.lhsNonContracting by decide)]
  rfl
theorem lhs_dot384_1 (i : S400000x128.Idx) (q : dot_S400000x384_S384x128_S400000x128_1_0_0_1_n_n.contr.Idx) :
    (dot_S400000x384_S384x128_S400000x128_1_0_0_1_n_n.lhsIdx i q 1).val = (q ⟨0, by decide⟩).val :=
  dot_S400000x384_S384x128_S400000x128_1_0_0_1_n_n.lhsIdx_val_of_single rfl i q
theorem rhs_dot384_0 (i : S400000x128.Idx) (q : dot_S400000x384_S384x128_S400000x128_1_0_0_1_n_n.contr.Idx) :
    (dot_S400000x384_S384x128_S400000x128_1_0_0_1_n_n.rhsIdx i q 0).val = (q ⟨0, by decide⟩).val :=
  dot_S400000x384_S384x128_S400000x128_1_0_0_1_n_n.rhsIdx_val_of_single rfl i q
theorem rhs_dot384_1 (i : S400000x128.Idx) (q : dot_S400000x384_S384x128_S400000x128_1_0_0_1_n_n.contr.Idx) :
    (dot_S400000x384_S384x128_S400000x128_1_0_0_1_n_n.rhsIdx i q 1).val = (i 1).val := by
  unfold DotDims.rhsIdx
  rw [dif_neg (show ¬(1 : Fin S384x128.rank) ∈ dot_S400000x384_S384x128_S400000x128_1_0_0_1_n_n.rhsBatch by decide), dif_pos (show (1 : Fin S384x128.rank) ∈ dot_S400000x384_S384x128_S400000x128_1_0_0_1_n_n.rhsNonContracting by decide)]
  rfl
/-- The product at an index: the sum over the contracted coordinate of the left row's entry times the right column's. -/
theorem dot384_apply (A : FVec Ideal S400000x384 .f32) (W : FVec Ideal S384x128 .f32) (r : Fin 400000) (j : Fin 128) :
    Host.dotGeneral (F := Ideal) dot_S400000x384_S384x128_S400000x128_1_0_0_1_n_n none A W (ix2 r j) = ∑ k : Fin 384, A (ix2 r k) * W (ix2 k j) := by
  simp only [Host.dotGeneral]
  rw [Ideal.dotGeneral_apply, ← Equiv.sum_comp (ValueIdx.contrEquiv1 dot_S400000x384_S384x128_S400000x128_1_0_0_1_n_n 384 rfl rfl).symm]
  refine Finset.sum_congr rfl fun k _ => ?_
  have hk := ValueIdx.contrEquiv1_symm_val dot_S400000x384_S384x128_S400000x128_1_0_0_1_n_n 384 rfl rfl k
  have el : dot_S400000x384_S384x128_S400000x128_1_0_0_1_n_n.lhsIdx (ix2 r j) ((ValueIdx.contrEquiv1 dot_S400000x384_S384x128_S400000x128_1_0_0_1_n_n 384 rfl rfl).symm k) = ix2 r k := funext fun a => Fin.ext (by
    match a with
    | ⟨0, _⟩ => exact lhs_dot384_0 _ _
    | ⟨1, _⟩ => exact (lhs_dot384_1 _ _).trans hk)
  have er : dot_S400000x384_S384x128_S400000x128_1_0_0_1_n_n.rhsIdx (ix2 r j) ((ValueIdx.contrEquiv1 dot_S400000x384_S384x128_S400000x128_1_0_0_1_n_n 384 rfl rfl).symm k) = ix2 k j := funext fun a => Fin.ext (by
    match a with
    | ⟨0, _⟩ => exact (rhs_dot384_0 _ _).trans hk
    | ⟨1, _⟩ => exact rhs_dot384_1 _ _)
  rw [el, er]

theorem lhs_dot128_0 (i : S400000x128.Idx) (q : dot_S400000x128_S128x128_S400000x128_1_0_0_1_n_n.contr.Idx) :
    (dot_S400000x128_S128x128_S400000x128_1_0_0_1_n_n.lhsIdx i q 0).val = (i 0).val := by
  unfold DotDims.lhsIdx
  rw [dif_neg (show ¬(0 : Fin S400000x128.rank) ∈ dot_S400000x128_S128x128_S400000x128_1_0_0_1_n_n.lhsBatch by decide), dif_pos (show (0 : Fin S400000x128.rank) ∈ dot_S400000x128_S128x128_S400000x128_1_0_0_1_n_n.lhsNonContracting by decide)]
  rfl
theorem lhs_dot128_1 (i : S400000x128.Idx) (q : dot_S400000x128_S128x128_S400000x128_1_0_0_1_n_n.contr.Idx) :
    (dot_S400000x128_S128x128_S400000x128_1_0_0_1_n_n.lhsIdx i q 1).val = (q ⟨0, by decide⟩).val :=
  dot_S400000x128_S128x128_S400000x128_1_0_0_1_n_n.lhsIdx_val_of_single rfl i q
theorem rhs_dot128_0 (i : S400000x128.Idx) (q : dot_S400000x128_S128x128_S400000x128_1_0_0_1_n_n.contr.Idx) :
    (dot_S400000x128_S128x128_S400000x128_1_0_0_1_n_n.rhsIdx i q 0).val = (q ⟨0, by decide⟩).val :=
  dot_S400000x128_S128x128_S400000x128_1_0_0_1_n_n.rhsIdx_val_of_single rfl i q
theorem rhs_dot128_1 (i : S400000x128.Idx) (q : dot_S400000x128_S128x128_S400000x128_1_0_0_1_n_n.contr.Idx) :
    (dot_S400000x128_S128x128_S400000x128_1_0_0_1_n_n.rhsIdx i q 1).val = (i 1).val := by
  unfold DotDims.rhsIdx
  rw [dif_neg (show ¬(1 : Fin S128x128.rank) ∈ dot_S400000x128_S128x128_S400000x128_1_0_0_1_n_n.rhsBatch by decide), dif_pos (show (1 : Fin S128x128.rank) ∈ dot_S400000x128_S128x128_S400000x128_1_0_0_1_n_n.rhsNonContracting by decide)]
  rfl
/-- The product at an index: the sum over the contracted coordinate of the left row's entry times the right column's. -/
theorem dot128_apply (A : FVec Ideal S400000x128 .f32) (W : FVec Ideal S128x128 .f32) (r : Fin 400000) (j : Fin 128) :
    Host.dotGeneral (F := Ideal) dot_S400000x128_S128x128_S400000x128_1_0_0_1_n_n none A W (ix2 r j) = ∑ k : Fin 128, A (ix2 r k) * W (ix2 k j) := by
  simp only [Host.dotGeneral]
  rw [Ideal.dotGeneral_apply, ← Equiv.sum_comp (ValueIdx.contrEquiv1 dot_S400000x128_S128x128_S400000x128_1_0_0_1_n_n 128 rfl rfl).symm]
  refine Finset.sum_congr rfl fun k _ => ?_
  have hk := ValueIdx.contrEquiv1_symm_val dot_S400000x128_S128x128_S400000x128_1_0_0_1_n_n 128 rfl rfl k
  have el : dot_S400000x128_S128x128_S400000x128_1_0_0_1_n_n.lhsIdx (ix2 r j) ((ValueIdx.contrEquiv1 dot_S400000x128_S128x128_S400000x128_1_0_0_1_n_n 128 rfl rfl).symm k) = ix2 r k := funext fun a => Fin.ext (by
    match a with
    | ⟨0, _⟩ => exact lhs_dot128_0 _ _
    | ⟨1, _⟩ => exact (lhs_dot128_1 _ _).trans hk)
  have er : dot_S400000x128_S128x128_S400000x128_1_0_0_1_n_n.rhsIdx (ix2 r j) ((ValueIdx.contrEquiv1 dot_S400000x128_S128x128_S400000x128_1_0_0_1_n_n 128 rfl rfl).symm k) = ix2 k j := funext fun a => Fin.ext (by
    match a with
    | ⟨0, _⟩ => exact (rhs_dot128_0 _ _).trans hk
    | ⟨1, _⟩ => exact rhs_dot128_1 _ _)
  rw [el, er]

theorem lhs_dot1_0 (i : S400000x1.Idx) (q : dot_S400000x128_S128x1_S400000x1_1_0_0_1_n_n.contr.Idx) :
    (dot_S400000x128_S128x1_S400000x1_1_0_0_1_n_n.lhsIdx i q 0).val = (i 0).val := by
  unfold DotDims.lhsIdx
  rw [dif_neg (show ¬(0 : Fin S400000x128.rank) ∈ dot_S400000x128_S128x1_S400000x1_1_0_0_1_n_n.lhsBatch by decide), dif_pos (show (0 : Fin S400000x128.rank) ∈ dot_S400000x128_S128x1_S400000x1_1_0_0_1_n_n.lhsNonContracting by decide)]
  rfl
theorem lhs_dot1_1 (i : S400000x1.Idx) (q : dot_S400000x128_S128x1_S400000x1_1_0_0_1_n_n.contr.Idx) :
    (dot_S400000x128_S128x1_S400000x1_1_0_0_1_n_n.lhsIdx i q 1).val = (q ⟨0, by decide⟩).val :=
  dot_S400000x128_S128x1_S400000x1_1_0_0_1_n_n.lhsIdx_val_of_single rfl i q
theorem rhs_dot1_0 (i : S400000x1.Idx) (q : dot_S400000x128_S128x1_S400000x1_1_0_0_1_n_n.contr.Idx) :
    (dot_S400000x128_S128x1_S400000x1_1_0_0_1_n_n.rhsIdx i q 0).val = (q ⟨0, by decide⟩).val :=
  dot_S400000x128_S128x1_S400000x1_1_0_0_1_n_n.rhsIdx_val_of_single rfl i q
theorem rhs_dot1_1 (i : S400000x1.Idx) (q : dot_S400000x128_S128x1_S400000x1_1_0_0_1_n_n.contr.Idx) :
    (dot_S400000x128_S128x1_S400000x1_1_0_0_1_n_n.rhsIdx i q 1).val = (i 1).val := by
  unfold DotDims.rhsIdx
  rw [dif_neg (show ¬(1 : Fin S128x1.rank) ∈ dot_S400000x128_S128x1_S400000x1_1_0_0_1_n_n.rhsBatch by decide), dif_pos (show (1 : Fin S128x1.rank) ∈ dot_S400000x128_S128x1_S400000x1_1_0_0_1_n_n.rhsNonContracting by decide)]
  rfl
/-- The product at an index: the sum over the contracted coordinate of the left row's entry times the right column's. -/
theorem dot1_apply (A : FVec Ideal S400000x128 .f32) (W : FVec Ideal S128x1 .f32) (r : Fin 400000) (j : Fin 1) :
    Host.dotGeneral (F := Ideal) dot_S400000x128_S128x1_S400000x1_1_0_0_1_n_n none A W (ix2 r j) = ∑ k : Fin 128, A (ix2 r k) * W (ix2 k j) := by
  simp only [Host.dotGeneral]
  rw [Ideal.dotGeneral_apply, ← Equiv.sum_comp (ValueIdx.contrEquiv1 dot_S400000x128_S128x1_S400000x1_1_0_0_1_n_n 128 rfl rfl).symm]
  refine Finset.sum_congr rfl fun k _ => ?_
  have hk := ValueIdx.contrEquiv1_symm_val dot_S400000x128_S128x1_S400000x1_1_0_0_1_n_n 128 rfl rfl k
  have el : dot_S400000x128_S128x1_S400000x1_1_0_0_1_n_n.lhsIdx (ix2 r j) ((ValueIdx.contrEquiv1 dot_S400000x128_S128x1_S400000x1_1_0_0_1_n_n 128 rfl rfl).symm k) = ix2 r k := funext fun a => Fin.ext (by
    match a with
    | ⟨0, _⟩ => exact lhs_dot1_0 _ _
    | ⟨1, _⟩ => exact (lhs_dot1_1 _ _).trans hk)
  have er : dot_S400000x128_S128x1_S400000x1_1_0_0_1_n_n.rhsIdx (ix2 r j) ((ValueIdx.contrEquiv1 dot_S400000x128_S128x1_S400000x1_1_0_0_1_n_n 128 rfl rfl).symm k) = ix2 k j := funext fun a => Fin.ext (by
    match a with
    | ⟨0, _⟩ => exact (rhs_dot1_0 _ _).trans hk
    | ⟨1, _⟩ => exact rhs_dot1_1 _ _)
  rw [el, er]

/-! ## The concatenated rows, piece by piece -/

/-- Coordinates 0 to 127 of a concatenated row are the first piece's. -/
theorem cat_apply_0 (xs xd e : FVec Ideal S400000x128 .f32)
    (h : Shape.Concatenates [S400000x128, S400000x128, S400000x128] S400000x384 1) (r : Fin 400000) (k : Fin 128) (hk : k.val < 384) :
    concatenate S400000x384 1 [⟨S400000x128, xs⟩, ⟨S400000x128, xd⟩, ⟨S400000x128, e⟩] h (ix2 r (⟨k.val, hk⟩ : Fin 384)) = xs (ix2 r k) :=
  concatenate_apply_piece (1 : Fin S400000x384.rank) [⟨S400000x128, xs⟩, ⟨S400000x128, xd⟩, ⟨S400000x128, e⟩] h
    (ix2 r (⟨k.val, hk⟩ : Fin 384)) 0 (by show (0 : Nat) < 3; decide) S400000x128 xs rfl rfl 0 rfl (ix2 r k)
    (fun b hb => match b, hb with
      | ⟨0, _⟩, _ => rfl
      | ⟨1, _⟩, hb => absurd rfl hb)
    (by show 0 + k.val = k.val; omega)

/-- Coordinates 128 to 255 are the second piece's. -/
theorem cat_apply_1 (xs xd e : FVec Ideal S400000x128 .f32)
    (h : Shape.Concatenates [S400000x128, S400000x128, S400000x128] S400000x384 1) (r : Fin 400000) (k : Fin 128) (hk : 128 + k.val < 384) :
    concatenate S400000x384 1 [⟨S400000x128, xs⟩, ⟨S400000x128, xd⟩, ⟨S400000x128, e⟩] h (ix2 r (⟨128 + k.val, hk⟩ : Fin 384)) = xd (ix2 r k) :=
  concatenate_apply_piece (1 : Fin S400000x384.rank) [⟨S400000x128, xs⟩, ⟨S400000x128, xd⟩, ⟨S400000x128, e⟩] h
    (ix2 r (⟨128 + k.val, hk⟩ : Fin 384)) 1 (by show (1 : Nat) < 3; decide) S400000x128 xd rfl rfl 128 rfl (ix2 r k)
    (fun b hb => match b, hb with
      | ⟨0, _⟩, _ => rfl
      | ⟨1, _⟩, hb => absurd rfl hb)
    rfl

/-- Coordinates 256 to 383 are the third piece's. -/
theorem cat_apply_2 (xs xd e : FVec Ideal S400000x128 .f32)
    (h : Shape.Concatenates [S400000x128, S400000x128, S400000x128] S400000x384 1) (r : Fin 400000) (k : Fin 128) (hk : 256 + k.val < 384) :
    concatenate S400000x384 1 [⟨S400000x128, xs⟩, ⟨S400000x128, xd⟩, ⟨S400000x128, e⟩] h (ix2 r (⟨256 + k.val, hk⟩ : Fin 384)) = e (ix2 r k) :=
  concatenate_apply_piece (1 : Fin S400000x384.rank) [⟨S400000x128, xs⟩, ⟨S400000x128, xd⟩, ⟨S400000x128, e⟩] h
    (ix2 r (⟨256 + k.val, hk⟩ : Fin 384)) 2 (by show (2 : Nat) < 3; decide) S400000x128 e rfl rfl 256 rfl (ix2 r k)
    (fun b hb => match b, hb with
      | ⟨0, _⟩, _ => rfl
      | ⟨1, _⟩, hb => absurd rfl hb)
    rfl

/-! ## The dense layers -/

/-- The first dense layer at an index: three 128-term products, one per row family, plus the bias. -/
theorem dense0_apply (xs xd e : FVec Ideal S400000x128 .f32) (W0 : FVec Ideal S384x128 .f32) (b0 : FVec Ideal S128 .f32)
    (r : Fin 400000) (j : Fin 128) :
    Stages.dense0 (F := Ideal) xs xd e W0 b0 (ix2 r j)
      = EdgeScore.dense3 (EdgeScore.rowOf xs r) (EdgeScore.rowOf xd r) (EdgeScore.rowOf e r)
          (EdgeScore.entries (EdgeScore.rowBlock W0 0 (by omega))) (EdgeScore.entries (EdgeScore.rowBlock W0 128 (by omega)))
          (EdgeScore.entries (EdgeScore.rowBlock W0 256 (by omega))) (EdgeScore.coords b0) j := by
  unfold Stages.dense0 EdgeScore.dense3
  rw [addf_apply, alongRows_apply, dot384_apply]
  refine congrArg₂ (· + ·) ?_ rfl
  refine (EdgeScore.sum_three_runs _).trans ?_
  refine congrArg₂ (· + ·) (congrArg₂ (· + ·) ?_ ?_) ?_
  · refine Finset.sum_congr rfl fun k _ => ?_
    refine congrArg₂ (· * ·) (cat_apply_0 xs xd e _ r k _) ?_
    exact congrArg W0 (congrArg (fun a : Fin 384 => ix2 a j) (Fin.ext (Nat.zero_add k.val).symm))
  · refine Finset.sum_congr rfl fun k _ => ?_
    exact congrArg₂ (· * ·) (cat_apply_1 xs xd e _ r k _) rfl
  · refine Finset.sum_congr rfl fun k _ => ?_
    exact congrArg₂ (· * ·) (cat_apply_2 xs xd e _ r k _) rfl

theorem rowOf_dense0 (xs xd e : FVec Ideal S400000x128 .f32) (W0 : FVec Ideal S384x128 .f32) (b0 : FVec Ideal S128 .f32) (r : Fin 400000) :
    EdgeScore.rowOf (Stages.dense0 (F := Ideal) xs xd e W0 b0) r
      = EdgeScore.dense3 (EdgeScore.rowOf xs r) (EdgeScore.rowOf xd r) (EdgeScore.rowOf e r)
          (EdgeScore.entries (EdgeScore.rowBlock W0 0 (by omega))) (EdgeScore.entries (EdgeScore.rowBlock W0 128 (by omega)))
          (EdgeScore.entries (EdgeScore.rowBlock W0 256 (by omega))) (EdgeScore.coords b0) :=
  funext fun j => dense0_apply xs xd e W0 b0 r j

/-- A 128 to 128 dense layer at an index. -/
theorem dense_apply (A : FVec Ideal S400000x128 .f32) (W : FVec Ideal S128x128 .f32) (b : FVec Ideal S128 .f32) (r : Fin 400000) (j : Fin 128) :
    Stages.dense (F := Ideal) A W b (ix2 r j) = EdgeScore.dense (EdgeScore.rowOf A r) (EdgeScore.entries W) (EdgeScore.coords b) j := by
  unfold Stages.dense EdgeScore.dense
  rw [addf_apply, alongRows_apply, dot128_apply]
  rfl

theorem rowOf_dense (A : FVec Ideal S400000x128 .f32) (W : FVec Ideal S128x128 .f32) (b : FVec Ideal S128 .f32) (r : Fin 400000) :
    EdgeScore.rowOf (Stages.dense (F := Ideal) A W b) r = EdgeScore.dense (EdgeScore.rowOf A r) (EdgeScore.entries W) (EdgeScore.coords b) :=
  funext fun j => dense_apply A W b r j

/-- The output layer at an index: one inner product plus the bias. -/
theorem out_apply (A : FVec Ideal S400000x128 .f32) (W3 : FVec Ideal S128x1 .f32) (b3 : FVec Ideal S1 .f32) (r : Fin 400000) (o : Fin 1) :
    Stages.out (F := Ideal) A W3 b3 (ix2 r o) = EdgeScore.dense (EdgeScore.rowOf A r) (EdgeScore.entries W3) (EdgeScore.coords b3) o := by
  unfold Stages.out EdgeScore.dense
  rw [addf_apply, dot1_apply]
  refine congrArg₂ (· + ·) rfl ?_
  refine (broadcastInDim_apply _ _ _ (ix2 r o) (ix2 (⟨0, Nat.one_pos⟩ : Fin 1) (⟨0, Nat.one_pos⟩ : Fin 1)) (fun a => match a with
    | ⟨0, _⟩ => by show 0 = if (1 : Nat) = 1 then 0 else r.val; rw [if_pos rfl]
    | ⟨1, _⟩ => by show 0 = if (1 : Nat) = 1 then 0 else o.val; rw [if_pos rfl])).trans ?_
  exact broadcastInDim_apply _ _ b3 _ (ix1 o) (fun a => match a with
    | ⟨0, _⟩ => by show o.val = if (1 : Nat) = 1 then 0 else 0; rw [if_pos rfl]; exact Nat.lt_one_iff.mp o.isLt)

/-- The reference's scores are the specification's, of the gathered rows and the weights. -/
theorem scores_eq (x0 : FVec Ideal S50000x128 .f32) (x1 : IVec S2x400000 32) (x2 : FVec Ideal S400000x128 .f32) (x3 : FVec Ideal S384x128 .f32)
    (x4 x5 x6 : FVec Ideal S128 .f32) (x7 : FVec Ideal S128x128 .f32) (x8 x9 x10 : FVec Ideal S128 .f32) (x11 : FVec Ideal S128x128 .f32)
    (x12 x13 x14 : FVec Ideal S128 .f32) (x15 : FVec Ideal S128x1 .f32) (x16 : FVec Ideal S1 .f32) :
    Stages.scores (F := Ideal) x0 x1 x2 x3 x4 x5 x6 x7 x8 x9 x10 x11 x12 x13 x14 x15 x16
      = EdgeScore.scores (Stages.taken x0 (Stages.srcOf x1)) (Stages.taken x0 (Stages.dstOf x1)) x2 x3 x4 x5 x6 x7 x8 x9 x10 x11 x12 x13 x14 x15 x16 := by
  funext i
  obtain ⟨r, o, rfl⟩ : ∃ (r : Fin 400000) (o : Fin 1), i = ix2 r o := ⟨i 0, i 1, eq_ix2 i⟩
  unfold Stages.scores EdgeScore.scores EdgeScore.scoresOfBlocks EdgeScore.score
  rw [out_apply, rowOf_act, rowOf_dense, rowOf_act, rowOf_dense, rowOf_act, rowOf_dense0]

end Cert.ReferenceIdeal.RefRows

end
-- ==== Proof.lean ====
/-
  Edge scores of a graph network: a blocked kernel against a whole-array reference, equal over the extended reals.

  Both programs score each of 400000 edges from the feature rows of the edge's two end nodes (gathered from a table of
  50000 nodes by the edge table's two rows of node indices) and the edge's own feature row: a 384 to 128 dense layer on
  the three rows side by side, then three times { normalise the 128 numbers (mean, mean squared deviation plus a small
  constant, inverse square root, per-coordinate scale and shift), clip below at zero, dense layer }, the last dense
  layer having one output. The reference does this on whole arrays, multiplying the concatenated 384 numbers by the
  first matrix at once. The kernel processes 4000 edges per grid point and multiplies the three rows by the three
  128-row blocks of the first matrix separately, adding the three products. A sum of 384 terms is the sum of its
  three runs of 128 terms whatever the terms are, so the two agree on every extended real; nothing else differs, and
  the float inputs' finiteness is never used.

  The node indices matter. The kernel's program gathers rows with a guard: a row whose index is out of range becomes
  a fill pattern, where the reference's gather would clamp the index. The claim is therefore stated, and proved,
  under the precondition that every index is at least 0 and below 50000, the range of the node table: then the
  guard passes everywhere and both programs gather the same rows.

  The three frames: the two kernel programs' are the generated frame certificates; the reference's is its run with the
  result dropped. The ideal pass recorded no rewrite, so there is nothing to preserve.
-/
import proofs.«418558_j52072183497375_1_alg».proof.Defs
import proofs.«418558_j52072183497375_1_alg».proof.Proof.Gen.Kernel
import proofs.«418558_j52072183497375_1_alg».proof.Proof.Gen.Kernel.Skeleton
import proofs.«418558_j52072183497375_1_alg».proof.Proof.Gen.Kernel.Launch
import proofs.«418558_j52072183497375_1_alg».proof.Proof.Gen.Kernel.Points
import proofs.«418558_j52072183497375_1_alg».proof.Proof.Gen.Kernel.Frame
import proofs.«418558_j52072183497375_1_alg».proof.Proof.Gen.KernelIdeal
import proofs.«418558_j52072183497375_1_alg».proof.Proof.Gen.KernelIdeal.Skeleton
import proofs.«418558_j52072183497375_1_alg».proof.Proof.Gen.KernelIdeal.Launch
import proofs.«418558_j52072183497375_1_alg».proof.Proof.Gen.KernelIdeal.Points
import proofs.«418558_j52072183497375_1_alg».proof.Proof.Gen.KernelIdeal.Frame
import proofs.«418558_j52072183497375_1_alg».proof.Proof.Gen.ReferenceIdeal
import proofs.«418558_j52072183497375_1_alg».proof.Proof.Gen.Pre_finite_inputs
import proofs.«418558_j52072183497375_1_alg».proof.Proof.Gen.KernelIdeal.Value
import proofs.«418558_j52072183497375_1_alg».proof.Proof.KerArray
import proofs.«418558_j52072183497375_1_alg».proof.Proof.Bridge
import proofs.«418558_j52072183497375_1_alg».proof.Proof.RefValue
import proofs.«418558_j52072183497375_1_alg».proof.Proof.RefRows
import Idealize.ShloMosaic.Adequacy
import Idealize.ShloMosaic.Init

noncomputable section

namespace Cert.Proof

open Idealize.ShloMosaic Idealize.SL.Sem Cert.Kernel

/-- The word-level kernel program terminates, faults nowhere and keeps its arguments. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the reference: its run, with what it says about the result dropped. -/
theorem frame_referenceIdeal : Cert.frame_ReferenceIdeal := fun m ρ _ =>
  (θ_run Cert.ReferenceIdeal.defs _ _).mono (fun _ h c => (h c).2) (Cert.ReferenceIdeal.RefValue.run (F := Ideal) m ρ)

/-- The ideal pass recorded no rewrite. -/
theorem preserves : Cert.preserves_Kernel_KernelIdeal := trivial

/-- Run from memories that agree on the arguments, with every node index in range, both programs end with the array
    of all edge scores: the kernel block by block, the reference stage by stage, the two written forms of the first
    layer joined by regrouping a sum. -/
theorem algebraic : Cert.algebraic_KernelIdeal_ReferenceIdeal := by
  intro m ρ m' ρ' hpre hagree
  refine ⟨fun c => Cert.KernelIdeal.Scores.all m c, ?_, ?_⟩
  · exact (θ_run Cert.KernelIdeal.defs _ _).mono
      (fun r h c => ⟨(h c).1.trans (Cert.KernelIdeal.Scores.final m c), (h c).2⟩) (Cert.KernelIdeal.Value.run_blocks m ρ)
  · refine (θ_run Cert.ReferenceIdeal.defs _ _).mono (fun _ h c => ⟨(h c).1.trans ?_, (h c).2⟩)
      (Cert.ReferenceIdeal.RefValue.run (F := Ideal) m' ρ')
    obtain ⟨a0, a1, a2, a3, a4, a5, a6, a7, a8, a9, a10, a11, a12, a13, a14, a15, a16⟩ := hagree c
    rw [a0, a1, a2, a3, a4, a5, a6, a7, a8, a9, a10, a11, a12, a13, a14, a15, a16, Cert.ReferenceIdeal.RefRows.scores_eq]
    exact (Cert.Bridge.scores_found m hpre c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
